-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_v9_1)) (v3 : (c : Dev Cert.KernelIdeal.nD) → Buf (Elt Ideal) ((c.tc : Thread Cert.KernelIdeal.nD Cert.KernelIdeal.τ).loc Cert.KernelIdeal.main_v9_2)) (v4 : (c : Dev Cert.KernelIdeal.nD) → Buf (Elt Ideal) ((c.tc : Thread Cert.KernelIdeal.nD Cert.KernelIdeal.τ).loc Cert.KernelIdeal.main_v9_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_v9_1) = v2 c
          ∧ r.2.mem ((c.tc : Thread Cert.KernelIdeal.nD Cert.KernelIdeal.τ).loc Cert.KernelIdeal.main_v9_2) = v3 c
          ∧ r.2.mem ((c.tc : Thread Cert.KernelIdeal.nD Cert.KernelIdeal.τ).loc Cert.KernelIdeal.main_v9_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_v56) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024x1024 .f32) (main_arg12 : FVec F S1024x1024 .f32) (main_arg13 : FVec F S1024x1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_v63 main_v67

def fn_part2 {F : FTy → Type} [FloatOps F] (main_arg7 : FVec F S1024 .f32) (main_arg8 : FVec F S1024 .f32) (main_arg9 : FVec F S1024 .f32) (main_arg10 : FVec F S1024x1024 .f32) (main_arg11 : FVec F S1024x1024 .f32) (main_arg12 : FVec F S1024x1024 .f32) (main_arg13 : FVec F S1024x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S16384x1024 .f32) (main_arg5 : FVec F S1024 .f32) (main_arg6 : FVec F S1024 .f32) (main_arg7 : FVec F S1024 .f32) (main_arg8 : FVec F S1024 .f32) (main_arg9 : FVec F S1024 .f32) (main_arg10 : FVec F S1024x1024 .f32) (main_arg11 : FVec F S1024x1024 .f32) (main_arg12 : FVec F S1024x1024 .f32) (main_arg13 : FVec F S1024x1024 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S16384x1024 .f32) (main_arg5 : FVec F S1024 .f32) (main_arg6 : FVec F S1024 .f32) (main_arg7 : FVec F S1024 .f32) (main_arg8 : FVec F S1024 .f32) (main_arg9 : FVec F S1024 .f32) (main_arg10 : FVec F S1024x1024 .f32) (main_arg11 : FVec F S1024x1024 .f32) (main_arg12 : FVec F S1024x1024 .f32) (main_arg13 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩
abbrev S64x1024 : Shape := ⟨2, ![64, 1024]⟩

abbrev nBuf : Space → Nat
  | .hbm => 27
  | .vmem => 31
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v9_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c4_i32 : BitVec 32 := 4#32
  let v54 : BitVec 32 := Scalar.addi c0_i32 c4_i32
  let c1_i32 : BitVec 32 := 1#32
  ⟨c0_i32, v54, c1_i32⟩
def k0_mult1 (k0_t1 : Fin k0_t1_loop.trips) : BitVec 32 :=
  let c0_i32 : BitVec 32 := 0#32
  let c1_i32 : BitVec 32 := 1#32
  let arg23 : BitVec 32 := Scf.iv c0_i32 c1_i32 k0_t1
  let c64_i32 : BitVec 32 := 64#32
  let v60 : BitVec 32 := Scalar.muli arg23 c64_i32
  v60
def k0_off1 (k0_t1 : Fin k0_t1_loop.trips) : Fin 2 → Nat :=
  let c0_i32 : BitVec 32 := 0#32
  let c1_i32 : BitVec 32 := 1#32
  let arg23 : BitVec 32 := Scf.iv c0_i32 c1_i32 k0_t1
  let c64_i32 : BitVec 32 := 64#32
  let v60 : BitVec 32 := Scalar.muli arg23 c64_i32
  let v61 : BitVec 32 := v60
  let v62 : Index := Scalar.indexCast v61
  let c0_38 : Index := 0#32
  ![v62.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x1024_S256x1024 : S256x1024.ShapeCasts S256x1024
  h_S64x1024 : 0 < S64x1024.numel
  broadcasts_S1x1024_S64x1024 : S1x1024.Broadcasts S64x1024
  shapeCasts_S64x1024_S64x1024 : S64x1024.ShapeCasts S64x1024
  dot_S256x1024_S1024x1024_S256x1024_1_1_0_0_n_n_wf : DotDims.WF S256x1024 S1024x1024 S256x1024 [1] [1] [0] [0] [] []
  hrank0 : 0 < grid0.rank
  k0_t1_ok : k0_t1_loop.OK
  k0_mult1_dvd : ∀ k0_t1 : Fin k0_t1_loop.trips, 64 ∣ (k0_mult1 k0_t1).toNat
  k0_off1_inb : ∀ k0_t1 : Fin k0_t1_loop.trips, ∀ a, (k0_off1 k0_t1) a + S64x1024.size a ≤ S256x1024.size a
  k0_off1_packedbf16 : ∀ k0_t1 : Fin k0_t1_loop.trips, (Rect.unit (s := S256x1024) (k0_off1 k0_t1) S64x1024.size (k0_off1_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S16384x1024.size a
  hwx0_3 : ∀ i : grid0.Coords, EltTy.bits .f32 = 32 ∨ (Rect.block (s := S16384x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S16384x1024.size a
  hwx0_4 : ∀ i : grid0.Coords, EltTy.bits .f32 = 32 ∨ (Rect.block (s := S16384x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .bf16 = 32 ∨ (Rect.block (s := S1024x1024) S1024x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x1024.size a ≤ S1024x1024.size a
  hwx0_13 : ∀ i : grid0.Coords, EltTy.bits .bf16 = 32 ∨ (Rect.block (s := S1024x1024) S1024x1024.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x1024.size a ≤ S16384x1024.size a
  hwx0_14 : ∀ i : grid0.Coords, EltTy.bits .f32 = 32 ∨ (Rect.block (s := S16384x1024) S256x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1024.size a ≤ S16384x1024.size a
  hwx0_15 : ∀ i : grid0.Coords, EltTy.bits .f32 = 32 ∨ (Rect.block (s := S16384x1024) S256x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x1024.size a ≤ S16384x1024.size a
  hwx0_16 : ∀ i : grid0.Coords, EltTy.bits .f32 = 32 ∨ (Rect.block (s := S16384x1024) S256x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x1024.size a ≤ S16384x1024.size a
  hwx0_17 : ∀ i : grid0.Coords, EltTy.bits .f32 = 32 ∨ (Rect.block (s := S16384x1024) S256x1024.size (cc0_transform_17 i) (hinb0_17 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v2) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v3) S1024x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9_0) S256x1024.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v9_1) S256x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v9_2) S256x1024.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v9_3) S256x1024.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S1x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_4 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S1024 : S_.BroadcastsInDim S1024 (![] : Fin 0 → Fin S1024.rank)
  bcast_S_S16384x1024 : S_.BroadcastsInDim S16384x1024 (![] : Fin 0 → Fin S16384x1024.rank)
  dot_S16384x1024_S1024x1024_S16384x1024_1_1_0_0_n_n_wf : DotDims.WF S16384x1024 S1024x1024 S16384x1024 [1] [1] [0] [0] [] []

variable [Facts₀]

def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf

class Facts : Prop extends Facts₀ where

variable [Facts]
-- ==== Proof.KernelStores.lean ====
/-
  The counted loop of the body: what one trip stores, and what the stores of the first n trips are.

  Trip k works on rows 64·k … 64·k + 63 of the 256-row buffers.  Into each of the four buffers it writes it makes ONE
  store, through those rows, of a payload computed from the same rows of the six buffers it reads; the payloads do not
  depend on what the written buffers held.  So the lists of stores after n trips do not depend on the contents the
  loop started from, and they cover the first 64·n rows.  Last, a fact about any whole buffer: stores that cover it
  leave contents that do not depend on what it held before.
-/
import proofs.«413805_j24764781429091_3_alg».proof.Proof.Gen.Kernel.Loops
import Idealize.ShloMosaic.Lib.Pipeline.Value

set_option maxRecDepth 8192

noncomputable section

namespace Cert.Kernel.Stores

open Cert.Kernel Cert.Kernel.Gen
open Idealize.ShloMosaic Idealize.ShloMosaic.TcCoe Idealize.ShloMosaic.Tactic
open Idealize.SL Idealize.SL.Sem

variable {F : FTy → Type} [FloatOps F]

/-- Stores that cover a whole buffer leave contents that do not depend on what the buffer held: two such contents
    read the same through the buffer's view, and a whole buffer's contents are determined by what they read. -/
theorem writes_whole_indep {sig : RefSig} {κ : Kind} {sp : Space} {s : Shape} {e : EltTy} {Val : EltTy → Type}
    (M : Memref sig κ sp s e) (h : M.IsWhole) (f f' : M.view.ty.Contents Val) (L : List (View.Piece Val s e))
    (hc : ∀ y, ∃ p ∈ L, y ∈ p.1.set) : M.view.writes Val f L = M.view.writes Val f' L :=
  h.read_bijective.1 (View.read_writes_of_cover M.view f M.view f' L hc)

/-- The rows trip `k` works on, as a rectangle of the 256-row buffers. -/
abbrev rowsOf (k : Fin k0_t1_loop.trips) : Rect S256x1024 := Rect.unit (k0_off1 k) S64x1024.size (k0_off1_inb k)

/-- An entry is in trip `k`'s rows iff its row is. -/
theorem mem_rowsOf (k : Fin k0_t1_loop.trips) (y : S256x1024.Idx) :
    y ∈ (rowsOf k).set ↔ 64 * k.val ≤ (y 0).val ∧ (y 0).val < 64 * k.val + 64 := by
  rw [Rect.mem_set_unit, k0_off1_eq k]
  constructor
  · intro h
    have h0 := h 0
    exact ⟨h0.1, h0.2⟩
  · intro h a
    match a with
    | ⟨0, _⟩ => exact ⟨h.1, h.2⟩
    | ⟨1, _⟩ => exact ⟨Nat.zero_le _, by show (y 1).val < 0 + 1024; have h1 : (y 1).val < 1024 := (y 1).isLt; omega⟩

/-- A list of stores that covers the first 64·n rows of a 256-row buffer. -/
def Covers {e : EltTy} (n : ℕ) (L : List (View.Piece (Elt F) S256x1024 e)) : Prop :=
  ∀ y : S256x1024.Idx, (y 0).val < 64 * n → ∃ p ∈ L, y ∈ p.1.set

theorem covers_zero {e : EltTy} (L : List (View.Piece (Elt F) S256x1024 e)) : Covers 0 L := fun y hy => absurd hy (by omega)

/-- One more trip's store, through the trip's rows, extends the cover by the trip's 64 rows. -/
theorem covers_cons {e : EltTy} (k : Fin k0_t1_loop.trips) (w : S64x1024.Idx → Elt F e)
    (L : List (View.Piece (Elt F) S256x1024 e)) (hL : Covers k.val L) :
    Covers (k.val + 1) ((⟨rowsOf k, w⟩ : View.Piece (Elt F) S256x1024 e) :: L) := by
  intro y hy
  by_cases hlo : (y 0).val < 64 * k.val
  · obtain ⟨p, hp, hm⟩ := hL y hlo
    exact ⟨p, List.mem_cons_of_mem _ hp, hm⟩
  · exact ⟨_, List.mem_cons_self, (mem_rowsOf k y).mpr ⟨by omega, by omega⟩⟩

/-- After all the trips the 256 rows are covered. -/
theorem covers_all {e : EltTy} (L : List (View.Piece (Elt F) S256x1024 e)) (h : Covers k0_t1_loop.trips L) :
    ∀ y : S256x1024.Idx, ∃ p ∈ L, y ∈ p.1.set := fun y =>
  h y (by have h0 : (y 0).val < 256 := (y 0).isLt; rw [show k0_t1_loop.trips = 4 from by decide]; omega)

section Trips

variable (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .bf16) (harg22 : arg22.IsWhole) (v50 : Vec F S1x1024 .f32) (v52 : Vec F S1x1024 .f32) (X_arg3 : BufTy.Contents (Elt F) arg3.view.ty) (X_arg4 : BufTy.Contents (Elt F) arg4.view.ty) (X_arg5 : BufTy.Contents (Elt F) arg5.view.ty) (X_arg19 : BufTy.Contents (Elt F) arg19.view.ty) (X_arg20 : BufTy.Contents (Elt F) arg20.view.ty) (X_arg21 : BufTy.Contents (Elt F) arg21.view.ty)

/-- ONE TRIP's stores: into each of the four buffers one store through the trip's rows, of the payload of the trip's
    loads (the same rows of the six buffers it reads), whatever the written buffers held.  The run's own witnesses,
    opened once. -/
theorem trip_stores (k : Fin k0_t1_loop.trips) (f_arg16 : BufTy.Contents (Elt F) arg16.view.ty) (f_arg17 : BufTy.Contents (Elt F) arg17.view.ty) (f_arg18 : BufTy.Contents (Elt F) arg18.view.ty) (f_arg22 : BufTy.Contents (Elt F) arg22.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 k f_arg16 f_arg17 f_arg18 f_arg22
      = ([⟨rowsOf k, k0_pay11 (k0_pay3 v50) (View.readAt (Elt F) arg3.view (rowsOf k).toLoadRect X_arg3) (View.readAt (Elt F) arg5.view (rowsOf k).toLoadRect X_arg5) (View.readAt (Elt F) arg19.view (rowsOf k).toLoadRect X_arg19) (View.readAt (Elt F) arg20.view (rowsOf k).toLoadRect X_arg20)⟩],
         [⟨rowsOf k, k0_pay12 (k0_pay3 v50) (View.readAt (Elt F) arg4.view (rowsOf k).toLoadRect X_arg4) (View.readAt (Elt F) arg5.view (rowsOf k).toLoadRect X_arg5) (View.readAt (Elt F) arg19.view (rowsOf k).toLoadRect X_arg19)⟩],
         [⟨rowsOf k, k0_pay8 (k0_pay3 v50) (View.readAt (Elt F) arg5.view (rowsOf k).toLoadRect X_arg5) (View.readAt (Elt F) arg19.view (rowsOf k).toLoadRect X_arg19)⟩],
         [⟨rowsOf k, k0_pay6 (k0_pay4 v52) (View.readAt (Elt F) arg3.view (rowsOf k).toLoadRect X_arg3) (View.readAt (Elt F) arg4.view (rowsOf k).toLoadRect X_arg4) (View.readAt (Elt F) arg5.view (rowsOf k).toLoadRect X_arg5) (View.readAt (Elt F) arg19.view (rowsOf k).toLoadRect X_arg19) (View.readAt (Elt F) arg20.view (rowsOf k).toLoadRect X_arg20) (View.readAt (Elt F) arg21.view (rowsOf k).toLoadRect X_arg21)⟩]) := by
  unfold tripL_k0_t1
  unfold trip_k0_t1
  dsimp only
  sl_unfold_words
  rfl

/-- The stores of the first n trips, one step at a time: trip n's four stores in front of those before it. -/
theorem stores_succ (G_arg16 : BufTy.Contents (Elt F) arg16.view.ty) (G_arg17 : BufTy.Contents (Elt F) arg17.view.ty) (G_arg18 : BufTy.Contents (Elt F) arg18.view.ty) (G_arg22 : BufTy.Contents (Elt F) arg22.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 (k.val + 1)
      = ((⟨rowsOf k, k0_pay11 (k0_pay3 v50) (View.readAt (Elt F) arg3.view (rowsOf k).toLoadRect X_arg3) (View.readAt (Elt F) arg5.view (rowsOf k).toLoadRect X_arg5) (View.readAt (Elt F) arg19.view (rowsOf k).toLoadRect X_arg19) (View.readAt (Elt F) arg20.view (rowsOf k).toLoadRect X_arg20)⟩ : View.Piece (Elt F) S256x1024 .f32) :: (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 k.val).1,
         (⟨rowsOf k, k0_pay12 (k0_pay3 v50) (View.readAt (Elt F) arg4.view (rowsOf k).toLoadRect X_arg4) (View.readAt (Elt F) arg5.view (rowsOf k).toLoadRect X_arg5) (View.readAt (Elt F) arg19.view (rowsOf k).toLoadRect X_arg19)⟩ : View.Piece (Elt F) S256x1024 .f32) :: (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 k.val).2.1,
         (⟨rowsOf k, k0_pay8 (k0_pay3 v50) (View.readAt (Elt F) arg5.view (rowsOf k).toLoadRect X_arg5) (View.readAt (Elt F) arg19.view (rowsOf k).toLoadRect X_arg19)⟩ : View.Piece (Elt F) S256x1024 .f32) :: (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 k.val).2.2.1,
         (⟨rowsOf k, k0_pay6 (k0_pay4 v52) (View.readAt (Elt F) arg3.view (rowsOf k).toLoadRect X_arg3) (View.readAt (Elt F) arg4.view (rowsOf k).toLoadRect X_arg4) (View.readAt (Elt F) arg5.view (rowsOf k).toLoadRect X_arg5) (View.readAt (Elt F) arg19.view (rowsOf k).toLoadRect X_arg19) (View.readAt (Elt F) arg20.view (rowsOf k).toLoadRect X_arg20) (View.readAt (Elt F) arg21.view (rowsOf k).toLoadRect X_arg21)⟩ : View.Piece (Elt F) S256x1024 .bf16) :: (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 k.val).2.2.2) := by
  have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 k
  rw [trip_stores] at e
  exact e

/-- The stores do not depend on the contents the loop started from. -/
theorem stores_indep (G_arg16 : BufTy.Contents (Elt F) arg16.view.ty) (G_arg17 : BufTy.Contents (Elt F) arg17.view.ty) (G_arg18 : BufTy.Contents (Elt F) arg18.view.ty) (G_arg22 : BufTy.Contents (Elt F) arg22.view.ty) (G'_arg16 : BufTy.Contents (Elt F) arg16.view.ty) (G'_arg17 : BufTy.Contents (Elt F) arg17.view.ty) (G'_arg18 : BufTy.Contents (Elt F) arg18.view.ty) (G'_arg22 : BufTy.Contents (Elt F) arg22.view.ty) (n : ℕ) (hn : n ≤ k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 n
      = pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G'_arg16 G'_arg17 G'_arg18 G'_arg22 n := by
  induction n with
  | zero => rfl
  | succ n ih =>
    have hlt : n < k0_t1_loop.trips := hn
    have e1 := stores_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 ⟨n, hlt⟩
    have e2 := stores_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G'_arg16 G'_arg17 G'_arg18 G'_arg22 ⟨n, hlt⟩
    dsimp only at e1 e2
    rw [e1, e2, ih (Nat.le_of_lt hlt)]

/-- The stores of the first n trips cover the first 64·n rows of each of the four buffers. -/
theorem stores_cover (G_arg16 : BufTy.Contents (Elt F) arg16.view.ty) (G_arg17 : BufTy.Contents (Elt F) arg17.view.ty) (G_arg18 : BufTy.Contents (Elt F) arg18.view.ty) (G_arg22 : BufTy.Contents (Elt F) arg22.view.ty) (n : ℕ) (hn : n ≤ k0_t1_loop.trips) :
    Covers n (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 n).1
    ∧ Covers n (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 n).2.1
    ∧ Covers n (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 n).2.2.1
    ∧ Covers n (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 n).2.2.2 := by
  induction n with
  | zero => exact ⟨covers_zero _, covers_zero _, covers_zero _, covers_zero _⟩
  | succ n ih =>
    have hlt : n < k0_t1_loop.trips := hn
    obtain ⟨c1, c2, c3, c4⟩ := ih (Nat.le_of_lt hlt)
    have e := stores_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 ⟨n, hlt⟩
    dsimp only at e
    rw [e]
    exact ⟨covers_cons ⟨n, hlt⟩ _ _ c1, covers_cons ⟨n, hlt⟩ _ _ c2, covers_cons ⟨n, hlt⟩ _ _ c3, covers_cons ⟨n, hlt⟩ _ _ c4⟩

/-- After the last trip, the stores do not depend on the contents the loop started from. -/
theorem stores_indep_all (G_arg16 : BufTy.Contents (Elt F) arg16.view.ty) (G_arg17 : BufTy.Contents (Elt F) arg17.view.ty) (G_arg18 : BufTy.Contents (Elt F) arg18.view.ty) (G_arg22 : BufTy.Contents (Elt F) arg22.view.ty) (G'_arg16 : BufTy.Contents (Elt F) arg16.view.ty) (G'_arg17 : BufTy.Contents (Elt F) arg17.view.ty) (G'_arg18 : BufTy.Contents (Elt F) arg18.view.ty) (G'_arg22 : BufTy.Contents (Elt F) arg22.view.ty) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 (Scf.trips k0_t1_loop.lb k0_t1_loop.ub k0_t1_loop.st)
      = pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G'_arg16 G'_arg17 G'_arg18 G'_arg22 (Scf.trips k0_t1_loop.lb k0_t1_loop.ub k0_t1_loop.st) :=
  stores_indep 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 G'_arg16 G'_arg17 G'_arg18 G'_arg22 _ (Nat.le_refl _)

/-- After the last trip the gated-value buffer is covered by the loop's stores, so what it holds does not depend on
    what it held before the loop. -/
theorem gated_writes_indep (G_arg16 : BufTy.Contents (Elt F) arg16.view.ty) (G_arg17 : BufTy.Contents (Elt F) arg17.view.ty) (G_arg18 : BufTy.Contents (Elt F) arg18.view.ty) (G_arg22 : BufTy.Contents (Elt F) arg22.view.ty) (f f' : BufTy.Contents (Elt F) arg22.view.ty) :
    arg22.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 (Scf.trips k0_t1_loop.lb k0_t1_loop.ub k0_t1_loop.st)).2.2.2
      = arg22.view.writes (Elt F) f' (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 (Scf.trips k0_t1_loop.lb k0_t1_loop.ub k0_t1_loop.st)).2.2.2 :=
  writes_whole_indep arg22 harg22 f f' _
    (covers_all _ (stores_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 _ (Nat.le_refl _)).2.2.2)

end Trips

end Cert.Kernel.Stores

end
-- ==== Proof.KernelIdealStores.lean ====
/-
  The counted loop of the body: what one trip stores, and what the stores of the first n trips are.

  Trip k works on rows 64·k … 64·k + 63 of the 256-row buffers.  Into each of the four buffers it writes it makes ONE
  store, through those rows, of a payload computed from the same rows of the six buffers it reads; the payloads do not
  depend on what the written buffers held.  So the lists of stores after n trips do not depend on the contents the
  loop started from, and they cover the first 64·n rows.  Last, a fact about any whole buffer: stores that cover it
  leave contents that do not depend on what it held before.
-/
import proofs.«413805_j24764781429091_3_alg».proof.Proof.Gen.KernelIdeal.Loops
import Idealize.ShloMosaic.Lib.Pipeline.Value

set_option maxRecDepth 8192

noncomputable section

namespace Cert.KernelIdeal.Stores

open Cert.KernelIdeal Cert.KernelIdeal.Gen
open Idealize.ShloMosaic Idealize.ShloMosaic.TcCoe Idealize.ShloMosaic.Tactic
open Idealize.SL Idealize.SL.Sem

variable {F : FTy → Type} [FloatOps F]

/-- Stores that cover a whole buffer leave contents that do not depend on what the buffer held: two such contents
    read the same through the buffer's view, and a whole buffer's contents are determined by what they read. -/
theorem writes_whole_indep {sig : RefSig} {κ : Kind} {sp : Space} {s : Shape} {e : EltTy} {Val : EltTy → Type}
    (M : Memref sig κ sp s e) (h : M.IsWhole) (f f' : M.view.ty.Contents Val) (L : List (View.Piece Val s e))
    (hc : ∀ y, ∃ p ∈ L, y ∈ p.1.set) : M.view.writes Val f L = M.view.writes Val f' L :=
  h.read_bijective.1 (View.read_writes_of_cover M.view f M.view f' L hc)

/-- The rows trip `k` works on, as a rectangle of the 256-row buffers. -/
abbrev rowsOf (k : Fin k0_t1_loop.trips) : Rect S256x1024 := Rect.unit (k0_off1 k) S64x1024.size (k0_off1_inb k)

/-- An entry is in trip `k`'s rows iff its row is. -/
theorem mem_rowsOf (k : Fin k0_t1_loop.trips) (y : S256x1024.Idx) :
    y ∈ (rowsOf k).set ↔ 64 * k.val ≤ (y 0).val ∧ (y 0).val < 64 * k.val + 64 := by
  rw [Rect.mem_set_unit, k0_off1_eq k]
  constructor
  · intro h
    have h0 := h 0
    exact ⟨h0.1, h0.2⟩
  · intro h a
    match a with
    | ⟨0, _⟩ => exact ⟨h.1, h.2⟩
    | ⟨1, _⟩ => exact ⟨Nat.zero_le _, by show (y 1).val < 0 + 1024; have h1 : (y 1).val < 1024 := (y 1).isLt; omega⟩

/-- A list of stores that covers the first 64·n rows of a 256-row buffer. -/
def Covers {e : EltTy} (n : ℕ) (L : List (View.Piece (Elt F) S256x1024 e)) : Prop :=
  ∀ y : S256x1024.Idx, (y 0).val < 64 * n → ∃ p ∈ L, y ∈ p.1.set

theorem covers_zero {e : EltTy} (L : List (View.Piece (Elt F) S256x1024 e)) : Covers 0 L := fun y hy => absurd hy (by omega)

/-- One more trip's store, through the trip's rows, extends the cover by the trip's 64 rows. -/
theorem covers_cons {e : EltTy} (k : Fin k0_t1_loop.trips) (w : S64x1024.Idx → Elt F e)
    (L : List (View.Piece (Elt F) S256x1024 e)) (hL : Covers k.val L) :
    Covers (k.val + 1) ((⟨rowsOf k, w⟩ : View.Piece (Elt F) S256x1024 e) :: L) := by
  intro y hy
  by_cases hlo : (y 0).val < 64 * k.val
  · obtain ⟨p, hp, hm⟩ := hL y hlo
    exact ⟨p, List.mem_cons_of_mem _ hp, hm⟩
  · exact ⟨_, List.mem_cons_self, (mem_rowsOf k y).mpr ⟨by omega, by omega⟩⟩

/-- After all the trips the 256 rows are covered. -/
theorem covers_all {e : EltTy} (L : List (View.Piece (Elt F) S256x1024 e)) (h : Covers k0_t1_loop.trips L) :
    ∀ y : S256x1024.Idx, ∃ p ∈ L, y ∈ p.1.set := fun y =>
  h y (by have h0 : (y 0).val < 256 := (y 0).isLt; rw [show k0_t1_loop.trips = 4 from by decide]; omega)

section Trips

variable (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .bf16) (harg22 : arg22.IsWhole) (v50 : Vec F S1x1024 .f32) (v52 : Vec F S1x1024 .f32) (X_arg3 : BufTy.Contents (Elt F) arg3.view.ty) (X_arg4 : BufTy.Contents (Elt F) arg4.view.ty) (X_arg5 : BufTy.Contents (Elt F) arg5.view.ty) (X_arg19 : BufTy.Contents (Elt F) arg19.view.ty) (X_arg20 : BufTy.Contents (Elt F) arg20.view.ty) (X_arg21 : BufTy.Contents (Elt F) arg21.view.ty)

/-- ONE TRIP's stores: into each of the four buffers one store through the trip's rows, of the payload of the trip's
    loads (the same rows of the six buffers it reads), whatever the written buffers held.  The run's own witnesses,
    opened once. -/
theorem trip_stores (k : Fin k0_t1_loop.trips) (f_arg16 : BufTy.Contents (Elt F) arg16.view.ty) (f_arg17 : BufTy.Contents (Elt F) arg17.view.ty) (f_arg18 : BufTy.Contents (Elt F) arg18.view.ty) (f_arg22 : BufTy.Contents (Elt F) arg22.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 k f_arg16 f_arg17 f_arg18 f_arg22
      = ([⟨rowsOf k, k0_pay11 (k0_pay3 v50) (View.readAt (Elt F) arg3.view (rowsOf k).toLoadRect X_arg3) (View.readAt (Elt F) arg5.view (rowsOf k).toLoadRect X_arg5) (View.readAt (Elt F) arg19.view (rowsOf k).toLoadRect X_arg19) (View.readAt (Elt F) arg20.view (rowsOf k).toLoadRect X_arg20)⟩],
         [⟨rowsOf k, k0_pay12 (k0_pay3 v50) (View.readAt (Elt F) arg4.view (rowsOf k).toLoadRect X_arg4) (View.readAt (Elt F) arg5.view (rowsOf k).toLoadRect X_arg5) (View.readAt (Elt F) arg19.view (rowsOf k).toLoadRect X_arg19)⟩],
         [⟨rowsOf k, k0_pay8 (k0_pay3 v50) (View.readAt (Elt F) arg5.view (rowsOf k).toLoadRect X_arg5) (View.readAt (Elt F) arg19.view (rowsOf k).toLoadRect X_arg19)⟩],
         [⟨rowsOf k, k0_pay6 (k0_pay4 v52) (View.readAt (Elt F) arg3.view (rowsOf k).toLoadRect X_arg3) (View.readAt (Elt F) arg4.view (rowsOf k).toLoadRect X_arg4) (View.readAt (Elt F) arg5.view (rowsOf k).toLoadRect X_arg5) (View.readAt (Elt F) arg19.view (rowsOf k).toLoadRect X_arg19) (View.readAt (Elt F) arg20.view (rowsOf k).toLoadRect X_arg20) (View.readAt (Elt F) arg21.view (rowsOf k).toLoadRect X_arg21)⟩]) := by
  unfold tripL_k0_t1
  unfold trip_k0_t1
  dsimp only
  sl_unfold_words
  rfl

/-- The stores of the first n trips, one step at a time: trip n's four stores in front of those before it. -/
theorem stores_succ (G_arg16 : BufTy.Contents (Elt F) arg16.view.ty) (G_arg17 : BufTy.Contents (Elt F) arg17.view.ty) (G_arg18 : BufTy.Contents (Elt F) arg18.view.ty) (G_arg22 : BufTy.Contents (Elt F) arg22.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 (k.val + 1)
      = ((⟨rowsOf k, k0_pay11 (k0_pay3 v50) (View.readAt (Elt F) arg3.view (rowsOf k).toLoadRect X_arg3) (View.readAt (Elt F) arg5.view (rowsOf k).toLoadRect X_arg5) (View.readAt (Elt F) arg19.view (rowsOf k).toLoadRect X_arg19) (View.readAt (Elt F) arg20.view (rowsOf k).toLoadRect X_arg20)⟩ : View.Piece (Elt F) S256x1024 .f32) :: (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 k.val).1,
         (⟨rowsOf k, k0_pay12 (k0_pay3 v50) (View.readAt (Elt F) arg4.view (rowsOf k).toLoadRect X_arg4) (View.readAt (Elt F) arg5.view (rowsOf k).toLoadRect X_arg5) (View.readAt (Elt F) arg19.view (rowsOf k).toLoadRect X_arg19)⟩ : View.Piece (Elt F) S256x1024 .f32) :: (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 k.val).2.1,
         (⟨rowsOf k, k0_pay8 (k0_pay3 v50) (View.readAt (Elt F) arg5.view (rowsOf k).toLoadRect X_arg5) (View.readAt (Elt F) arg19.view (rowsOf k).toLoadRect X_arg19)⟩ : View.Piece (Elt F) S256x1024 .f32) :: (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 k.val).2.2.1,
         (⟨rowsOf k, k0_pay6 (k0_pay4 v52) (View.readAt (Elt F) arg3.view (rowsOf k).toLoadRect X_arg3) (View.readAt (Elt F) arg4.view (rowsOf k).toLoadRect X_arg4) (View.readAt (Elt F) arg5.view (rowsOf k).toLoadRect X_arg5) (View.readAt (Elt F) arg19.view (rowsOf k).toLoadRect X_arg19) (View.readAt (Elt F) arg20.view (rowsOf k).toLoadRect X_arg20) (View.readAt (Elt F) arg21.view (rowsOf k).toLoadRect X_arg21)⟩ : View.Piece (Elt F) S256x1024 .bf16) :: (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 k.val).2.2.2) := by
  have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 k
  rw [trip_stores] at e
  exact e

/-- The stores do not depend on the contents the loop started from. -/
theorem stores_indep (G_arg16 : BufTy.Contents (Elt F) arg16.view.ty) (G_arg17 : BufTy.Contents (Elt F) arg17.view.ty) (G_arg18 : BufTy.Contents (Elt F) arg18.view.ty) (G_arg22 : BufTy.Contents (Elt F) arg22.view.ty) (G'_arg16 : BufTy.Contents (Elt F) arg16.view.ty) (G'_arg17 : BufTy.Contents (Elt F) arg17.view.ty) (G'_arg18 : BufTy.Contents (Elt F) arg18.view.ty) (G'_arg22 : BufTy.Contents (Elt F) arg22.view.ty) (n : ℕ) (hn : n ≤ k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 n
      = pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G'_arg16 G'_arg17 G'_arg18 G'_arg22 n := by
  induction n with
  | zero => rfl
  | succ n ih =>
    have hlt : n < k0_t1_loop.trips := hn
    have e1 := stores_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 ⟨n, hlt⟩
    have e2 := stores_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G'_arg16 G'_arg17 G'_arg18 G'_arg22 ⟨n, hlt⟩
    dsimp only at e1 e2
    rw [e1, e2, ih (Nat.le_of_lt hlt)]

/-- The stores of the first n trips cover the first 64·n rows of each of the four buffers. -/
theorem stores_cover (G_arg16 : BufTy.Contents (Elt F) arg16.view.ty) (G_arg17 : BufTy.Contents (Elt F) arg17.view.ty) (G_arg18 : BufTy.Contents (Elt F) arg18.view.ty) (G_arg22 : BufTy.Contents (Elt F) arg22.view.ty) (n : ℕ) (hn : n ≤ k0_t1_loop.trips) :
    Covers n (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 n).1
    ∧ Covers n (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 n).2.1
    ∧ Covers n (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 n).2.2.1
    ∧ Covers n (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 n).2.2.2 := by
  induction n with
  | zero => exact ⟨covers_zero _, covers_zero _, covers_zero _, covers_zero _⟩
  | succ n ih =>
    have hlt : n < k0_t1_loop.trips := hn
    obtain ⟨c1, c2, c3, c4⟩ := ih (Nat.le_of_lt hlt)
    have e := stores_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 ⟨n, hlt⟩
    dsimp only at e
    rw [e]
    exact ⟨covers_cons ⟨n, hlt⟩ _ _ c1, covers_cons ⟨n, hlt⟩ _ _ c2, covers_cons ⟨n, hlt⟩ _ _ c3, covers_cons ⟨n, hlt⟩ _ _ c4⟩

/-- After the last trip, the stores do not depend on the contents the loop started from. -/
theorem stores_indep_all (G_arg16 : BufTy.Contents (Elt F) arg16.view.ty) (G_arg17 : BufTy.Contents (Elt F) arg17.view.ty) (G_arg18 : BufTy.Contents (Elt F) arg18.view.ty) (G_arg22 : BufTy.Contents (Elt F) arg22.view.ty) (G'_arg16 : BufTy.Contents (Elt F) arg16.view.ty) (G'_arg17 : BufTy.Contents (Elt F) arg17.view.ty) (G'_arg18 : BufTy.Contents (Elt F) arg18.view.ty) (G'_arg22 : BufTy.Contents (Elt F) arg22.view.ty) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 (Scf.trips k0_t1_loop.lb k0_t1_loop.ub k0_t1_loop.st)
      = pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G'_arg16 G'_arg17 G'_arg18 G'_arg22 (Scf.trips k0_t1_loop.lb k0_t1_loop.ub k0_t1_loop.st) :=
  stores_indep 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 G'_arg16 G'_arg17 G'_arg18 G'_arg22 _ (Nat.le_refl _)

/-- After the last trip the gated-value buffer is covered by the loop's stores, so what it holds does not depend on
    what it held before the loop. -/
theorem gated_writes_indep (G_arg16 : BufTy.Contents (Elt F) arg16.view.ty) (G_arg17 : BufTy.Contents (Elt F) arg17.view.ty) (G_arg18 : BufTy.Contents (Elt F) arg18.view.ty) (G_arg22 : BufTy.Contents (Elt F) arg22.view.ty) (f f' : BufTy.Contents (Elt F) arg22.view.ty) :
    arg22.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 (Scf.trips k0_t1_loop.lb k0_t1_loop.ub k0_t1_loop.st)).2.2.2
      = arg22.view.writes (Elt F) f' (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 (Scf.trips k0_t1_loop.lb k0_t1_loop.ub k0_t1_loop.st)).2.2.2 :=
  writes_whole_indep arg22 harg22 f f' _
    (covers_all _ (stores_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 _ (Nat.le_refl _)).2.2.2)

end Trips

end Cert.KernelIdeal.Stores

end
-- ==== Proof.Spec.lean ====
/-
  The mathematics of one step of the time-mixing recurrence, written over plain index functions.

  One batch entry is five rows of 1024 extended reals: the token `x`, the previous token `sx`, and the state's numerator
  `sA`, denominator `sB` and running exponent `sp`.  The parameters are five rows (decay, first-token bonus, three mixing
  rows) and four 1024 × 1024 matrices, each read as (output feature, input feature).

    mixed token      u_t h   = x h * t h + sx h * (1 - t h)                     for t the key, value, receptance mixing row
    projections      k o     = ∑ h, u_k h * wk o h     v o = ∑ h, u_v h * wv o h     r o = ∑ h, u_r h * wr o h
    weighted value   ww = tf + k,  p = max sp ww,
                     wkv = (exp (sp - p) * sA + exp (ww - p) * v) / (exp (sp - p) * sB + exp (ww - p) + ε)
    gated value      g h     = logistic (r h) * wkv h
    output           out o   = ∑ h, g h * wo o h
    new state        q = max (sp + td) k,
                     A' = exp (sp + td - q) * sA + exp (k - q) * v,   B' = exp (sp + td - q) * sB + exp (k - q),   p' = q

  Every operation is the exact one on the extended reals; the two float literals (1 and ε) are kept as their words, which
  are the same on both sides and never evaluated.
-/
import Idealize.ShloMosaic.PureOps.Ideal
import Idealize.ShloMosaic.Lib.ValueIdx
import Idealize.ShloMosaic.Lib.IdealHost

noncomputable section

namespace Cert.TimeMix

open Idealize.ShloMosaic Idealize.ShloMosaic.ValueIdx

/-- A row of 1024 features. -/
abbrev Row := Fin 1024 → EReal
/-- A 1024 × 1024 matrix, read at (output feature, input feature). -/
abbrev Mat := Fin 1024 → Fin 1024 → EReal

/-- The literal one, as its word. -/
def one : EReal := Ideal.ofBits .f32 0x3F800000#32
/-- The literal ε (the float nearest 1e-8), as its word. -/
def eps : EReal := Ideal.ofBits .f32 0x322BCC77#32

/-- The parameters of the layer. -/
structure Params where
  td : Row
  tf : Row
  tmk : Row
  tmv : Row
  tmr : Row
  wk : Mat
  wv : Mat
  wr : Mat
  wo : Mat

/-- The token mixed with the previous one by a mixing row. -/
def mixRow (x sx t : Row) : Row := fun h => x h * t h + sx h * (one - t h)

/-- A row against the rows of a matrix. -/
def lin (u : Row) (w : Mat) : Row := fun o => ∑ h : Fin 1024, u h * w o h

/-- Key, value and receptance (before its gate) of one batch entry. -/
def kRow (P : Params) (x sx : Row) : Row := lin (mixRow x sx P.tmk) P.wk
def vRow (P : Params) (x sx : Row) : Row := lin (mixRow x sx P.tmv) P.wv
def rRow (P : Params) (x sx : Row) : Row := lin (mixRow x sx P.tmr) P.wr

/-- The stabilised weighted value at one feature: numerator over denominator plus ε, both rebased to the larger of
    the state's exponent and the current one. -/
def wkvE (sA sB sp k v tf : EReal) : EReal :=
  Ideal.div (Ideal.exp (sp - max sp (tf + k)) * sA + Ideal.exp (tf + k - max sp (tf + k)) * v)
    (Ideal.exp (sp - max sp (tf + k)) * sB + Ideal.exp (tf + k - max sp (tf + k)) + eps)

/-- The gated value at one feature. -/
def gatedE (sA sB sp k v r tf : EReal) : EReal := Ideal.logistic r * wkvE sA sB sp k v tf

/-- The new running exponent at one feature. -/
def expoE (sp k td : EReal) : EReal := max (sp + td) k
/-- The new numerator at one feature. -/
def numE (sA sp k v td : EReal) : EReal :=
  Ideal.exp (sp + td - expoE sp k td) * sA + Ideal.exp (k - expoE sp k td) * v
/-- The new denominator at one feature. -/
def denE (sB sp k td : EReal) : EReal :=
  Ideal.exp (sp + td - expoE sp k td) * sB + Ideal.exp (k - expoE sp k td)

/-- The gated row of one batch entry. -/
def gatedRow (P : Params) (x sx sA sB sp : Row) : Row := fun h =>
  gatedE (sA h) (sB h) (sp h) (kRow P x sx h) (vRow P x sx h) (rRow P x sx h) (P.tf h)

/-- The four results of one batch entry. -/
def outRow (P : Params) (x sx sA sB sp : Row) : Row := lin (gatedRow P x sx sA sB sp) P.wo
def numRow (P : Params) (x sx sA sp : Row) : Row := fun o =>
  numE (sA o) (sp o) (kRow P x sx o) (vRow P x sx o) (P.td o)
def denRow (P : Params) (x sx sB sp : Row) : Row := fun o => denE (sB o) (sp o) (kRow P x sx o) (P.td o)
def expoRow (P : Params) (x sx sp : Row) : Row := fun o => expoE (sp o) (kRow P x sx o) (P.td o)

/-- Row `b` of an array of `n` rows. -/
def rowOf {n : Nat} (X : (⟨2, ![n, 1024]⟩ : Shape).Idx → EReal) (b : Fin n) : Row := fun h => X (ix2 b h)

/-- The four result arrays over `n` batch entries, entry by entry. -/
def outArr {n : Nat} (P : Params) (X SX SA SB SP : (⟨2, ![n, 1024]⟩ : Shape).Idx → EReal) :
    (⟨2, ![n, 1024]⟩ : Shape).Idx → EReal := fun j =>
  outRow P (rowOf X (j 0)) (rowOf SX (j 0)) (rowOf SA (j 0)) (rowOf SB (j 0)) (rowOf SP (j 0)) (j 1)
def numArr {n : Nat} (P : Params) (X SX SA SP : (⟨2, ![n, 1024]⟩ : Shape).Idx → EReal) :
    (⟨2, ![n, 1024]⟩ : Shape).Idx → EReal := fun j =>
  numRow P (rowOf X (j 0)) (rowOf SX (j 0)) (rowOf SA (j 0)) (rowOf SP (j 0)) (j 1)
def denArr {n : Nat} (P : Params) (X SX SB SP : (⟨2, ![n, 1024]⟩ : Shape).Idx → EReal) :
    (⟨2, ![n, 1024]⟩ : Shape).Idx → EReal := fun j =>
  denRow P (rowOf X (j 0)) (rowOf SX (j 0)) (rowOf SB (j 0)) (rowOf SP (j 0)) (j 1)
def expoArr {n : Nat} (P : Params) (X SX SP : (⟨2, ![n, 1024]⟩ : Shape).Idx → EReal) :
    (⟨2, ![n, 1024]⟩ : Shape).Idx → EReal := fun j =>
  expoRow P (rowOf X (j 0)) (rowOf SX (j 0)) (rowOf SP (j 0)) (j 1)

/-- The parameters read out of five rows stored as 1 × 1024 arrays and four matrices. -/
def paramsOfBlocks (td tf tmk tmv tmr : (⟨2, ![1, 1024]⟩ : Shape).Idx → EReal)
    (wk wv wr wo : (⟨2, ![1024, 1024]⟩ : Shape).Idx → EReal) : Params where
  td := fun h => td (ix2 0 h)
  tf := fun h => tf (ix2 0 h)
  tmk := fun h => tmk (ix2 0 h)
  tmv := fun h => tmv (ix2 0 h)
  tmr := fun h => tmr (ix2 0 h)
  wk := fun o h => wk (ix2 o h)
  wv := fun o h => wv (ix2 o h)
  wr := fun o h => wr (ix2 o h)
  wo := fun o h => wo (ix2 o h)

/-- The parameters read out of five rows stored as arrays of 1024 and four matrices. -/
def paramsOfArrays (td tf tmk tmv tmr : (⟨1, ![1024]⟩ : Shape).Idx → EReal)
    (wk wv wr wo : (⟨2, ![1024, 1024]⟩ : Shape).Idx → EReal) : Params where
  td := fun h => td (ix1 h)
  tf := fun h => tf (ix1 h)
  tmk := fun h => tmk (ix1 h)
  tmv := fun h => tmv (ix1 h)
  tmr := fun h => tmr (ix1 h)
  wk := fun o h => wk (ix2 o h)
  wv := fun o h => wv (ix2 o h)
  wr := fun o h => wr (ix2 o h)
  wo := fun o h => wo (ix2 o h)

/-- The gate the reference spells out is the logistic function: `1 / (1 + exp (-r))` with the literal one. -/
theorem logistic_spelled (r : EReal) :
    Ideal.div one (one + Ideal.exp (-r)) = Ideal.logistic r := by
  unfold one Ideal.logistic
  rw [Ideal.ofBits_one_f32]

end Cert.TimeMix

end
-- ==== Proof.RefValue.lean ====
/-
  The reference program computes the specification.

  The reference is a list of whole-array operations.  Read at a batch entry `b` and a feature, they are: three mixed
  tokens (the token times a mixing row, plus the previous token times one minus that row), each contracted against the
  rows of a matrix (key, value, receptance); the weighted value built from the key, the value and the state, rebased to
  the larger of the two exponents; the gate `1 / (1 + exp (-r))`; the gated value contracted against the rows of the
  output matrix; and the new state.  Each lemma below reads one stage at the index `(b, h)` and names it as the
  specification does; the four theorems at the end say the four results are the specification's four arrays.
-/
import proofs.«413805_j24764781429091_3_alg».proof.Proof.Gen.ReferenceIdeal.Read
import proofs.«413805_j24764781429091_3_alg».proof.Proof.Spec

noncomputable section

namespace Cert.ReferenceIdeal.RefValue

open Cert.ReferenceIdeal Cert.ReferenceIdeal.Read Cert.TimeMix Idealize.ShloMosaic Idealize.ShloMosaic.ValueIdx

/-- An array of 16384 batch entries by 1024 features. -/
abbrev A2 := (⟨S16384x1024, .f32⟩ : BufTy).Contents (Elt Ideal)
/-- A row of 1024 features. -/
abbrev A1 := (⟨S1024, .f32⟩ : BufTy).Contents (Elt Ideal)
/-- A 1024 × 1024 matrix. -/
abbrev AW := (⟨S1024x1024, .f32⟩ : BufTy).Contents (Elt Ideal)

/-! ## Rows and literals broadcast over the batch -/

/-- A row of features broadcast over the batch reads, at `(b, h)`, the row's entry `h`. -/
theorem row_bcast (y : A1) (b : Fin 16384) (h : Fin 1024) : val_main_v1 (F := Ideal) y (ix2 b h) = y (ix1 h) := by
  rw [val_main_v1_apply, val_main_v0_apply]
  exact congrArg y (funext fun a => match a with | ⟨0, _⟩ => rfl)

/-- The first-token bonus row broadcast over the batch. -/
theorem bonus_bcast (y : A1) (b : Fin 16384) (h : Fin 1024) : val_main_v37 (F := Ideal) y (ix2 b h) = y (ix1 h) :=
  row_bcast y b h

/-- The decay row broadcast over the batch. -/
theorem decay_bcast (y : A1) (b : Fin 16384) (h : Fin 1024) : val_main_v54 (F := Ideal) y (ix2 b h) = y (ix1 h) :=
  row_bcast y b h

/-- The literal one broadcast to a row of features. -/
theorem one_row (i : S1024.Idx) : val_main_v3 (F := Ideal) i = one := by
  rw [val_main_v3_apply, val_main_cst_apply]; rfl

/-- The literal one broadcast to a whole array (the gate's two ones). -/
theorem one_arr (i : S16384x1024.Idx) : val_main_v32 (F := Ideal) i = one := by
  rw [val_main_v32_apply, val_main_cst_2_apply]; rfl

/-- The gate's numerator is the same literal one. -/
theorem one_arr' (i : S16384x1024.Idx) : val_main_v34 (F := Ideal) i = one := one_arr i

/-- The literal ε broadcast to a whole array. -/
theorem eps_arr (i : S16384x1024.Idx) : val_main_v49 (F := Ideal) i = eps := by
  rw [val_main_v49_apply, val_main_cst_4_apply]; rfl

/-- One minus a mixing row, broadcast over the batch. -/
theorem compl_bcast (t : A1) (b : Fin 16384) (h : Fin 1024) :
    val_main_v6 (F := Ideal) t (ix2 b h) = one - t (ix1 h) := by
  show val_main_v1 (F := Ideal) (val_main_v4 (F := Ideal) t) (ix2 b h) = one - t (ix1 h)
  rw [row_bcast, val_main_v4_apply, one_row]; rfl

/-! ## The mixed tokens and their three projections -/

/-- The token mixed with the previous one by a mixing row `t`, at `(b, h)`:
    `x b h * t h + sx b h * (1 - t h)`. -/
theorem mixed_at (x sx : A2) (t : A1) (b : Fin 16384) (h : Fin 1024) :
    val_main_v8 (F := Ideal) x sx t (ix2 b h) = mixRow (rowOf x b) (rowOf sx b) (fun h => t (ix1 h)) h := by
  rw [val_main_v8_apply, val_main_v2_apply, val_main_v7_apply, row_bcast, compl_bcast]; rfl

/-- The mixed token contracted against the rows of a matrix `w`, at `(b, o)`: the sum over the input feature `h` of
    the mixed token at `(b, h)` times `w o h`.  This is the key projection. -/
theorem proj_at (x sx : A2) (t : A1) (w : AW) (b : Fin 16384) (o : Fin 1024) :
    val_main_v27 (F := Ideal) x sx t w (ix2 b o)
      = lin (mixRow (rowOf x b) (rowOf sx b) (fun h => t (ix1 h))) (fun o h => w (ix2 o h)) o := by
  rw [val_main_v27_apply]
  show _ = ∑ h : Fin 1024, _
  refine Finset.sum_congr rfl fun h _ => ?_
  rw [show lidx_main_v27 (ix2 b o) h = ix2 b h from
        funext fun a => match a with | ⟨0, _⟩ => rfl | ⟨1, _⟩ => rfl,
      show ridx_main_v27 (ix2 b o) h = ix2 o h from
        funext fun a => match a with | ⟨0, _⟩ => rfl | ⟨1, _⟩ => rfl,
      mixed_at]

/-- The value projection is the same contraction, of the token mixed by the value row against the value matrix. -/
theorem val_at (x sx : A2) (t : A1) (w : AW) (b : Fin 16384) (o : Fin 1024) :
    val_main_v28 (F := Ideal) x sx t w (ix2 b o)
      = lin (mixRow (rowOf x b) (rowOf sx b) (fun h => t (ix1 h))) (fun o h => w (ix2 o h)) o :=
  proj_at x sx t w b o

/-- The receptance projection (before its gate), likewise. -/
theorem rec_at (x sx : A2) (t : A1) (w : AW) (b : Fin 16384) (o : Fin 1024) :
    val_main_v29 (F := Ideal) x sx t w (ix2 b o)
      = lin (mixRow (rowOf x b) (rowOf sx b) (fun h => t (ix1 h))) (fun o h => w (ix2 o h)) o :=
  proj_at x sx t w b o

/-! ## The gate and the gated value -/

/-- The gate the reference spells out, `1 / (1 + exp (-r))` with the literal one, is the logistic function of the
    receptance projection. -/
theorem gate_at (x sx : A2) (t : A1) (w : AW) (b : Fin 16384) (h : Fin 1024) :
    val_main_v35 (F := Ideal) x sx t w (ix2 b h)
      = Ideal.logistic (lin (mixRow (rowOf x b) (rowOf sx b) (fun h => t (ix1 h))) (fun o h => w (ix2 o h)) h) := by
  rw [val_main_v35_apply, one_arr', val_main_v33_apply, one_arr, val_main_v31_apply, val_main_v30_apply, rec_at]
  exact logistic_spelled _

/-- The gate times the stabilised weighted value, at `(b, h)`, is the specification's gated row of entry `b`. -/
theorem gated_at (x0 x1 x2 x3 x4 : A2) (x5 x6 x7 x8 x9 : A1) (x10 x11 x12 x13 : AW) (b : Fin 16384) (h : Fin 1024) :
    val_main_v52 (F := Ideal) x0 x1 x2 x3 x4 x6 x7 x8 x9 x10 x11 x12 (ix2 b h)
      = gatedRow (paramsOfArrays x5 x6 x7 x8 x9 x10 x11 x12 x13) (rowOf x0 b) (rowOf x1 b) (rowOf x2 b) (rowOf x3 b) (rowOf x4 b) h := by
  rw [val_main_v52_apply, gate_at, val_main_v51_apply, val_main_v46_apply, val_main_v50_apply, val_main_v44_apply,
    val_main_v45_apply, val_main_v48_apply, val_main_v47_apply, eps_arr, val_main_v41_apply, val_main_v43_apply,
    val_main_v40_apply, val_main_v42_apply, val_main_v39_apply, val_main_v38_apply, bonus_bcast, proj_at, val_at]
  rfl

/-! ## The four results -/

/-- The new running exponent: the larger of the decayed old exponent and the key. -/
theorem expo_eq (x0 x1 x2 x3 x4 : A2) (x5 x6 x7 x8 x9 : A1) (x10 x11 x12 x13 : AW) :
    val_main_v56 (F := Ideal) x0 x1 x4 x5 x7 x10 = expoArr (paramsOfArrays x5 x6 x7 x8 x9 x10 x11 x12 x13) x0 x1 x4 := by
  funext i
  obtain ⟨b, o, rfl⟩ : ∃ (b : Fin 16384) (o : Fin 1024), i = ix2 b o := ⟨i 0, i 1, eq_ix2 i⟩
  rw [val_main_v56_apply, val_main_v55_apply, decay_bcast, proj_at]
  rfl

/-- The new numerator: the old one and the value, each weighted by the exponential of its exponent's distance to the
    new exponent. -/
theorem num_eq (x0 x1 x2 x3 x4 : A2) (x5 x6 x7 x8 x9 : A1) (x10 x11 x12 x13 : AW) :
    val_main_v63 (F := Ideal) x0 x1 x2 x4 x5 x7 x8 x10 x11 = numArr (paramsOfArrays x5 x6 x7 x8 x9 x10 x11 x12 x13) x0 x1 x2 x4 := by
  funext i
  obtain ⟨b, o, rfl⟩ : ∃ (b : Fin 16384) (o : Fin 1024), i = ix2 b o := ⟨i 0, i 1, eq_ix2 i⟩
  rw [val_main_v63_apply, val_main_v61_apply, val_main_v62_apply, val_main_v58_apply, val_main_v60_apply,
    val_main_v57_apply, val_main_v59_apply, val_main_v56_apply, val_main_v55_apply, decay_bcast, proj_at, val_at]
  rfl

/-- The new denominator: the same two weights, on the old denominator and on one. -/
theorem den_eq (x0 x1 x2 x3 x4 : A2) (x5 x6 x7 x8 x9 : A1) (x10 x11 x12 x13 : AW) :
    val_main_v65 (F := Ideal) x0 x1 x3 x4 x5 x7 x10 = denArr (paramsOfArrays x5 x6 x7 x8 x9 x10 x11 x12 x13) x0 x1 x3 x4 := by
  funext i
  obtain ⟨b, o, rfl⟩ : ∃ (b : Fin 16384) (o : Fin 1024), i = ix2 b o := ⟨i 0, i 1, eq_ix2 i⟩
  rw [val_main_v65_apply, val_main_v64_apply, val_main_v58_apply, val_main_v60_apply, val_main_v57_apply,
    val_main_v59_apply, val_main_v56_apply, val_main_v55_apply, decay_bcast, proj_at]
  rfl

/-- The output: the gated row of entry `b` contracted against the rows of the output matrix. -/
theorem out_eq (x0 x1 x2 x3 x4 : A2) (x5 x6 x7 x8 x9 : A1) (x10 x11 x12 x13 : AW) :
    val_main_v66 (F := Ideal) x0 x1 x2 x3 x4 x6 x7 x8 x9 x10 x11 x12 x13
      = outArr (paramsOfArrays x5 x6 x7 x8 x9 x10 x11 x12 x13) x0 x1 x2 x3 x4 := by
  funext i
  obtain ⟨b, o, rfl⟩ : ∃ (b : Fin 16384) (o : Fin 1024), i = ix2 b o := ⟨i 0, i 1, eq_ix2 i⟩
  rw [val_main_v66_apply]
  show _ = ∑ h : Fin 1024,
    gatedRow (paramsOfArrays x5 x6 x7 x8 x9 x10 x11 x12 x13) (rowOf x0 b) (rowOf x1 b) (rowOf x2 b) (rowOf x3 b) (rowOf x4 b) h * x13 (ix2 o h)
  refine Finset.sum_congr rfl fun h _ => ?_
  rw [show lidx_main_v66 (ix2 b o) h = ix2 b h from
        funext fun a => match a with | ⟨0, _⟩ => rfl | ⟨1, _⟩ => rfl,
      show ridx_main_v66 (ix2 b o) h = ix2 o h from
        funext fun a => match a with | ⟨0, _⟩ => rfl | ⟨1, _⟩ => rfl,
      gated_at x0 x1 x2 x3 x4 x5 x6 x7 x8 x9 x10 x11 x12 x13 b h]

end Cert.ReferenceIdeal.RefValue

end
-- ==== Proof.LibDotRows.lean ====
/-
  A product of two matrices that contracts the LAST axis of both, read at an entry.

  For a left operand of shape [R, K], a right operand of shape [N, K] and dimension numbers
  "contract axis 1 with axis 1, free axes 0 and 0, no batch axes", the contraction shape has the one axis of extent
  K, the left operand is read at (p, k) and the right at (n, k); so over the extended reals the product accumulated
  into the zero splat is, at (p, n), the plain sum ∑ k, l (p, k) * r (n, k): row p of the left operand against row n
  of the right.  Stated for ANY such record of dimension numbers, whatever its name, from the six equations that
  say which lists it holds (each `rfl` for a printed record).
-/
import Idealize.ShloMosaic.PureOps.Ideal.Laws
import Idealize.ShloMosaic.Lib.ValueIdx

noncomputable section

namespace Cert.LibDotRows

open Idealize.ShloMosaic Idealize.ShloMosaic.ValueIdx

variable {R K N : Nat} (D : DotDims ⟨2, ![R, K]⟩ ⟨2, ![N, K]⟩ ⟨2, ![R, N]⟩)

/-- Two coordinates of an index named by equal numbers are equal. -/
private theorem coord_congr {s : Shape} (i : s.Idx) (a b : Nat) (ha : a < s.rank) (hb : b < s.rank) (h : a = b) :
    (i ⟨a, ha⟩).val = (i ⟨b, hb⟩).val := by subst h; rfl

/-- One axis is contracted. -/
theorem contr_rank (hlc : D.lhsContracting = [1]) : D.contr.rank = 1 := by
  rw [D.rank_contr, hlc]; rfl

/-- Its extent is K, the left operand's second extent. -/
theorem contr_size (hlc : D.lhsContracting = [1]) :
    D.contr.size ⟨0, by rw [contr_rank D hlc]; exact Nat.one_pos⟩ = K := by
  have h := D.size_contr 0 (by rw [hlc]; exact Nat.one_pos)
  refine h.trans ?_
  simp only [hlc, List.getElem_cons_zero]
  rfl

/-- The left operand's row is the result's row. -/
theorem lhs_row (hln : D.lhsNonContracting = [0]) (hlb : D.lhsBatch = [])
    (i : (⟨2, ![R, N]⟩ : Shape).Idx) (q : D.contr.Idx) : (D.lhsIdx i q 0).val = (i 0).val := by
  unfold DotDims.lhsIdx
  rw [dif_neg (show ¬(0 : Fin (⟨2, ![R, K]⟩ : Shape).rank) ∈ D.lhsBatch by rw [hlb]; exact List.not_mem_nil),
    dif_pos (show (0 : Fin (⟨2, ![R, K]⟩ : Shape).rank) ∈ D.lhsNonContracting by rw [hln]; exact List.mem_singleton.mpr rfl)]
  simp only [Fin.val_cast]
  exact coord_congr i _ 0 _ (show 0 < 2 from Nat.two_pos) (by simp [hlb, hln])

/-- The left operand's column is the contraction coordinate. -/
theorem lhs_col (hlc : D.lhsContracting = [1]) (i : (⟨2, ![R, N]⟩ : Shape).Idx) (q : D.contr.Idx) :
    (D.lhsIdx i q 1).val = (q ⟨0, by rw [contr_rank D hlc]; exact Nat.one_pos⟩).val :=
  D.lhsIdx_val_of_single hlc i q

/-- The right operand's row is the result's column. -/
theorem rhs_row (hln : D.lhsNonContracting = [0]) (hrn : D.rhsNonContracting = [0]) (hlb : D.lhsBatch = [])
    (hrb : D.rhsBatch = []) (i : (⟨2, ![R, N]⟩ : Shape).Idx) (q : D.contr.Idx) : (D.rhsIdx i q 0).val = (i 1).val := by
  unfold DotDims.rhsIdx
  rw [dif_neg (show ¬(0 : Fin (⟨2, ![N, K]⟩ : Shape).rank) ∈ D.rhsBatch by rw [hrb]; exact List.not_mem_nil),
    dif_pos (show (0 : Fin (⟨2, ![N, K]⟩ : Shape).rank) ∈ D.rhsNonContracting by rw [hrn]; exact List.mem_singleton.mpr rfl)]
  simp only [Fin.val_cast]
  exact coord_congr i _ 1 _ (show 1 < 2 from Nat.one_lt_two) (by simp [hlb, hln, hrn])

/-- The right operand's column is the contraction coordinate. -/
theorem rhs_col (hlc : D.lhsContracting = [1]) (hrc : D.rhsContracting = [1]) (i : (⟨2, ![R, N]⟩ : Shape).Idx)
    (q : D.contr.Idx) : (D.rhsIdx i q 1).val = (q ⟨0, by rw [contr_rank D hlc]; exact Nat.one_pos⟩).val :=
  D.rhsIdx_val_of_single hrc i q

/-- THE PRODUCT AT AN ENTRY: accumulated into the zero splat, at (p, n), it is row p of the left operand against
    row n of the right. -/
theorem matmul_zero_rows {φ₁ φ₂ : FTy} (prec : Option ContractPrecision)
    (hlc : D.lhsContracting = [1]) (hrc : D.rhsContracting = [1]) (hln : D.lhsNonContracting = [0])
    (hrn : D.rhsNonContracting = [0]) (hlb : D.lhsBatch = []) (hrb : D.rhsBatch = [])
    (l : FVec Ideal ⟨2, ![R, K]⟩ φ₁) (r : FVec Ideal ⟨2, ![N, K]⟩ φ₂) (p : Fin R) (n : Fin N) :
    FloatOps.matmul D prec l r (constant ⟨2, ![R, N]⟩ .f32 0x00000000#32) (ix2 p n)
      = ∑ k : Fin K, l (ix2 p k) * r (ix2 n k) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 p n) ((contrEquiv1 D K (contr_rank D hlc) (contr_size D hlc)).symm k) = ix2 p k :=
    funext fun a => Fin.ext (by
      match a with
      | ⟨0, _⟩ => exact lhs_row D hln hlb _ _
      | ⟨1, _⟩ => exact (lhs_col D hlc _ _).trans hk)
  have er : D.rhsIdx (ix2 p n) ((contrEquiv1 D K (contr_rank D hlc) (contr_size D hlc)).symm k) = ix2 n k :=
    funext fun a => Fin.ext (by
      match a with
      | ⟨0, _⟩ => exact rhs_row D hln hrn hlb hrb _ _
      | ⟨1, _⟩ => exact (rhs_col D hlc hrc _ _).trans hk)
  rw [el, er]

end Cert.LibDotRows

end
-- ==== Proof.KernelPay.lean ====
/-
  The kernel body's arithmetic, read at one entry.

  The body's pure terms are: three mixed tokens of the 256-row block (each narrowed, which changes nothing over the
  extended reals), each against the rows of a weight matrix (a product into the zero splat); then, on 64-row slices, the
  gated weighted value and the three state updates, all entrywise in the slices with the two parameter rows broadcast
  down the rows; and last the gated block against the rows of the output matrix.  At an entry each of them is the
  corresponding scalar expression of the specification.
-/
import proofs.«413805_j24764781429091_3_alg».proof.Proof.Gen.KernelIdeal.Skeleton
import proofs.«413805_j24764781429091_3_alg».proof.Proof.Spec
import proofs.«413805_j24764781429091_3_alg».proof.Proof.LibDotRows
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.TimeMix

/-- A parameter row stored as a 1 × 1024 block. -/
abbrev rowB (t : Vec Ideal S1x1024 .f32) : Row := fun h => t (ix2 (0 : Fin 1) h)
/-- A weight matrix stored as a 1024 × 1024 block. -/
abbrev matB (w : Vec Ideal S1024x1024 .bf16) : Mat := fun o h => w (ix2 o h)

/-- The mixed token for the value projection, at an entry. -/
theorem mixV_apply (x0 x1 : Vec Ideal S256x1024 .f32) (t : Vec Ideal S1x1024 .f32) (r : Fin 256) (h : Fin 1024) :
    k0_pay13 x0 x1 t (ix2 r h) = mixRow (rowOf x0 r) (rowOf x1 r) (rowB t) h := by
  unfold k0_pay13
  simp only [shapeCast_self]
  show x0 (ix2 r h) * broadcastTo S256x1024 t _ (ix2 r h)
      + x1 (ix2 r h) * broadcastTo S256x1024 (subf (broadcast S1x1024 (Scalar.ofBits (F := Ideal) .f32 0x3F800000#32)) t) _ (ix2 r h) = _
  rw [broadcastTo_1b_ab_apply, broadcastTo_1b_ab_apply]
  rfl

/-- The mixed token for the receptance projection, at an entry. -/
theorem mixR_apply (x0 x1 : Vec Ideal S256x1024 .f32) (t : Vec Ideal S1x1024 .f32) (r : Fin 256) (h : Fin 1024) :
    k0_pay14 x0 x1 t (ix2 r h) = mixRow (rowOf x0 r) (rowOf x1 r) (rowB t) h := by
  unfold k0_pay14
  simp only [shapeCast_self]
  show x0 (ix2 r h) * broadcastTo S256x1024 t _ (ix2 r h)
      + x1 (ix2 r h) * broadcastTo S256x1024 (subf (broadcast S1x1024 (Scalar.ofBits (F := Ideal) .f32 0x3F800000#32)) t) _ (ix2 r h) = _
  rw [broadcastTo_1b_ab_apply, broadcastTo_1b_ab_apply]
  rfl

/-- A block against the rows of a weight matrix, into the zero splat, at an entry. -/
theorem proj_apply (u : FVec Ideal S256x1024 .bf16) (w : FVec Ideal S1024x1024 .bf16) (r : Fin 256) (o : Fin 1024) :
    matmul dot_S256x1024_S1024x1024_S256x1024_1_1_0_0_n_n none u w (constant S256x1024 .f32 0x00000000#32) (ix2 r o)
      = ∑ h : Fin 1024, u (ix2 r h) * w (ix2 o h) :=
  Cert.LibDotRows.matmul_zero_rows dot_S256x1024_S1024x1024_S256x1024_1_1_0_0_n_n none rfl rfl rfl rfl rfl rfl u w r o

/-- The value projection of the block, at an entry. -/
theorem vBlk_apply (x0 x1 : Vec Ideal S256x1024 .f32) (t : Vec Ideal S1x1024 .f32) (w : Vec Ideal S1024x1024 .bf16)
    (r : Fin 256) (o : Fin 1024) :
    k0_pay1 (k0_pay13 x0 x1 t) w (ix2 r o) = lin (mixRow (rowOf x0 r) (rowOf x1 r) (rowB t)) (matB w) o := by
  unfold k0_pay1
  simp only [shapeCast_self]
  rw [proj_apply]
  exact Finset.sum_congr rfl fun h _ => by rw [mixV_apply]

/-- The receptance projection of the block, at an entry. -/
theorem rBlk_apply (x0 x1 : Vec Ideal S256x1024 .f32) (t : Vec Ideal S1x1024 .f32) (w : Vec Ideal S1024x1024 .bf16)
    (r : Fin 256) (o : Fin 1024) :
    k0_pay2 (k0_pay14 x0 x1 t) w (ix2 r o) = lin (mixRow (rowOf x0 r) (rowOf x1 r) (rowB t)) (matB w) o := by
  unfold k0_pay2
  simp only [shapeCast_self]
  rw [proj_apply]
  exact Finset.sum_congr rfl fun h _ => by rw [mixR_apply]

/-- The key projection of the block (its mixed token is spelt inside the same term), at an entry. -/
theorem kBlk_apply (x0 x1 : Vec Ideal S256x1024 .f32) (t : Vec Ideal S1x1024 .f32) (w : Vec Ideal S1024x1024 .bf16)
    (r : Fin 256) (o : Fin 1024) :
    k0_pay15 x0 x1 t w (ix2 r o) = lin (mixRow (rowOf x0 r) (rowOf x1 r) (rowB t)) (matB w) o := by
  unfold k0_pay15
  simp only [shapeCast_self]
  rw [proj_apply]
  refine Finset.sum_congr rfl fun h _ => ?_
  show (x0 (ix2 r h) * broadcastTo S256x1024 t _ (ix2 r h)
      + x1 (ix2 r h) * broadcastTo S256x1024 (subf (broadcast S1x1024 (Scalar.ofBits (F := Ideal) .f32 0x3F800000#32)) t) _ (ix2 r h))
      * w (ix2 o h) = _
  rw [broadcastTo_1b_ab_apply, broadcastTo_1b_ab_apply]
  rfl

/-- The output projection of a gated block, at an entry. -/
theorem outBlk_apply (g : Vec Ideal S256x1024 .bf16) (w : Vec Ideal S1024x1024 .bf16) (r : Fin 256) (o : Fin 1024) :
    k0_pay5 g w (ix2 r o) = ∑ h : Fin 1024, g (ix2 r h) * w (ix2 o h) := by
  unfold k0_pay5
  simp only [shapeCast_self]
  rw [proj_apply]

/-- A parameter row broadcast down a 64-row slice reads the row. -/
theorem bcast64 (t : FVec Ideal S1x1024 .f32) (r : Fin 64) (h : Fin 1024) :
    broadcastTo S64x1024 t broadcasts_S1x1024_S64x1024 (ix2 r h) = t (ix2 (0 : Fin 1) h) :=
  broadcastTo_1b_ab_apply t _ r h

/-- The new running exponent on a slice, at an entry. -/
theorem expoS_apply (td : FVec Ideal S1x1024 .f32) (sp k : Vec Ideal S64x1024 .f32) (r : Fin 64) (h : Fin 1024) :
    k0_pay8 td sp k (ix2 r h) = expoE (sp (ix2 r h)) (k (ix2 r h)) (td (ix2 (0 : Fin 1) h)) := by
  unfold expoE
  rw [← bcast64 td r h]
  rfl

/-- The new numerator on a slice, at an entry. -/
theorem numS_apply (td : FVec Ideal S1x1024 .f32) (sA sp k v : Vec Ideal S64x1024 .f32) (r : Fin 64) (h : Fin 1024) :
    k0_pay11 td sA sp k v (ix2 r h)
      = numE (sA (ix2 r h)) (sp (ix2 r h)) (k (ix2 r h)) (v (ix2 r h)) (td (ix2 (0 : Fin 1) h)) := by
  unfold numE expoE
  rw [← bcast64 td r h]
  rfl

/-- The new denominator on a slice, at an entry. -/
theorem denS_apply (td : FVec Ideal S1x1024 .f32) (sB sp k : Vec Ideal S64x1024 .f32) (r : Fin 64) (h : Fin 1024) :
    k0_pay12 td sB sp k (ix2 r h)
      = denE (sB (ix2 r h)) (sp (ix2 r h)) (k (ix2 r h)) (td (ix2 (0 : Fin 1) h)) := by
  unfold denE expoE
  rw [← bcast64 td r h]
  rfl

/-- The gated weighted value on a slice (narrowed, which changes nothing), at an entry. -/
theorem gatedS_apply (tf : FVec Ideal S1x1024 .f32) (sA sB sp k v rp : Vec Ideal S64x1024 .f32) (r : Fin 64) (h : Fin 1024) :
    k0_pay6 tf sA sB sp k v rp (ix2 r h)
      = gatedE (sA (ix2 r h)) (sB (ix2 r h)) (sp (ix2 r h)) (k (ix2 r h)) (v (ix2 r h)) (rp (ix2 r h))
          (tf (ix2 (0 : Fin 1) h)) := by
  unfold gatedE wkvE eps
  rw [← bcast64 tf r h]
  unfold k0_pay6
  simp only [shapeCast_self]
  rfl

end Cert.KernelIdeal.Pay

end
-- ==== Proof.KernelLoop.lean ====
/-
  The body's counted loop, read as values.

  The loop runs four trips; trip k works on rows 64·k … 64·k + 63 of the 256-row block.  Every value it stores is an
  entrywise expression of the rows it loads and of a parameter row broadcast down the rows, so each store is the
  restriction, to its rows, of ONE function of the whole 256-row block: the new numerator, the new denominator, the new
  exponent, and the gated weighted value.  By induction on the trips the stores of the first n trips all restrict those
  four functions; with the cover of all 256 rows after the fourth trip, every entry of the four buffers then reads its
  function, whatever the buffers held before.
-/
import proofs.«413805_j24764781429091_3_alg».proof.Proof.KernelIdealStores
import proofs.«413805_j24764781429091_3_alg».proof.Proof.KernelPay

set_option maxRecDepth 8192

noncomputable section

namespace Cert.KernelIdeal.Loop

open Cert.KernelIdeal Cert.KernelIdeal.Gen Cert.KernelIdeal.Pay Cert.KernelIdeal.Stores Cert.TimeMix
open Idealize.ShloMosaic Idealize.ShloMosaic.TcCoe Idealize.ShloMosaic.ValueIdx
open Idealize.SL Idealize.SL.Sem

/-- The new numerator of a 256-row block, entry by entry. -/
def numB (td : Vec Ideal S1x1024 .f32) (sA sp k v : Vec Ideal S256x1024 .f32) : Vec Ideal S256x1024 .f32 := fun y =>
  numE (sA y) (sp y) (k y) (v y) (td (ix2 (0 : Fin 1) (y 1)))
/-- The new denominator of a 256-row block. -/
def denB (td : Vec Ideal S1x1024 .f32) (sB sp k : Vec Ideal S256x1024 .f32) : Vec Ideal S256x1024 .f32 := fun y =>
  denE (sB y) (sp y) (k y) (td (ix2 (0 : Fin 1) (y 1)))
/-- The new exponent of a 256-row block. -/
def expoB (td : Vec Ideal S1x1024 .f32) (sp k : Vec Ideal S256x1024 .f32) : Vec Ideal S256x1024 .f32 := fun y =>
  expoE (sp y) (k y) (td (ix2 (0 : Fin 1) (y 1)))
/-- The gated weighted value of a 256-row block (narrowed, which changes nothing). -/
def gatedB (tf : Vec Ideal S1x1024 .f32) (sA sB sp k v rp : Vec Ideal S256x1024 .f32) : Vec Ideal S256x1024 .bf16 := fun y =>
  gatedE (sA y) (sB y) (sp y) (k y) (v y) (rp y) (tf (ix2 (0 : Fin 1) (y 1)))

/-- The column of a slice's entry is its own column. -/
theorem rowsOf_col (k : Fin k0_t1_loop.trips) (r : Fin 64) (h : Fin 1024) : ((rowsOf k).emb (ix2 r h)) 1 = h := by
  apply Fin.ext
  show (k0_off1 k) 1 + 1 * h.val = h.val
  rw [k0_off1_eq k]
  show 0 + 1 * h.val = h.val
  omega

/-- The two parameter rows reach the loop through a cast to their own shape. -/
theorem pay3_self (v : Vec Ideal S1x1024 .f32) : k0_pay3 v = v := by unfold k0_pay3; exact shapeCast_self _ _
theorem pay4_self (v : Vec Ideal S1x1024 .f32) : k0_pay4 v = v := by unfold k0_pay4; exact shapeCast_self _ _

/-- A list of stores into a 256-row block all of whose payloads restrict one function of the block. -/
def Agrees {e : EltTy} (G : S256x1024.Idx → Elt Ideal e) (L : List (View.Piece (Elt Ideal) S256x1024 e)) : Prop :=
  ∀ p ∈ L, ∀ x : p.1.shape.Idx, p.2 x = G (p.1.emb x)

theorem agrees_nil {e : EltTy} (G : S256x1024.Idx → Elt Ideal e) : Agrees G [] := fun _ hp => absurd hp List.not_mem_nil

/-- One more trip's store, through the trip's rows, keeps the agreement. -/
theorem agrees_cons {e : EltTy} (G : S256x1024.Idx → Elt Ideal e) (k : Fin k0_t1_loop.trips) (w : S64x1024.Idx → Elt Ideal e)
    (L : List (View.Piece (Elt Ideal) S256x1024 e)) (hw : ∀ (r : Fin 64) (h : Fin 1024), w (ix2 r h) = G ((rowsOf k).emb (ix2 r h)))
    (hL : Agrees G L) : Agrees G ((⟨rowsOf k, w⟩ : View.Piece (Elt Ideal) S256x1024 e) :: L) := by
  intro p hp
  rcases List.mem_cons.mp hp with rfl | hp'
  · intro x
    obtain ⟨r, h, rfl⟩ : ∃ (r : Fin 64) (h : Fin 1024), x = ix2 r h := ⟨x 0, x 1, eq_ix2 x⟩
    exact hw r h
  · exact hL p hp'

section Trips

variable (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .bf16) (harg22 : arg22.IsWhole) (v50 : Vec Ideal S1x1024 .f32) (v52 : Vec Ideal S1x1024 .f32) (X_arg3 : BufTy.Contents (Elt Ideal) arg3.view.ty) (X_arg4 : BufTy.Contents (Elt Ideal) arg4.view.ty) (X_arg5 : BufTy.Contents (Elt Ideal) arg5.view.ty) (X_arg19 : BufTy.Contents (Elt Ideal) arg19.view.ty) (X_arg20 : BufTy.Contents (Elt Ideal) arg20.view.ty) (X_arg21 : BufTy.Contents (Elt Ideal) arg21.view.ty)

/-- Trip k's four payloads are the four block functions on the trip's rows. -/
theorem num_piece (k : Fin k0_t1_loop.trips) (r : Fin 64) (h : Fin 1024) :
    k0_pay11 (k0_pay3 v50) (View.readAt (Elt Ideal) arg3.view (rowsOf k).toLoadRect X_arg3) (View.readAt (Elt Ideal) arg5.view (rowsOf k).toLoadRect X_arg5) (View.readAt (Elt Ideal) arg19.view (rowsOf k).toLoadRect X_arg19) (View.readAt (Elt Ideal) arg20.view (rowsOf k).toLoadRect X_arg20) (ix2 r h)
      = numB v50 (arg3.view.read (Elt Ideal) X_arg3) (arg5.view.read (Elt Ideal) X_arg5) (arg19.view.read (Elt Ideal) X_arg19) (arg20.view.read (Elt Ideal) X_arg20) ((rowsOf k).emb (ix2 r h)) := by
  rw [numS_apply, pay3_self]
  unfold numB
  rw [rowsOf_col]
  rfl
theorem den_piece (k : Fin k0_t1_loop.trips) (r : Fin 64) (h : Fin 1024) :
    k0_pay12 (k0_pay3 v50) (View.readAt (Elt Ideal) arg4.view (rowsOf k).toLoadRect X_arg4) (View.readAt (Elt Ideal) arg5.view (rowsOf k).toLoadRect X_arg5) (View.readAt (Elt Ideal) arg19.view (rowsOf k).toLoadRect X_arg19) (ix2 r h)
      = denB v50 (arg4.view.read (Elt Ideal) X_arg4) (arg5.view.read (Elt Ideal) X_arg5) (arg19.view.read (Elt Ideal) X_arg19) ((rowsOf k).emb (ix2 r h)) := by
  rw [denS_apply, pay3_self]
  unfold denB
  rw [rowsOf_col]
  rfl
theorem expo_piece (k : Fin k0_t1_loop.trips) (r : Fin 64) (h : Fin 1024) :
    k0_pay8 (k0_pay3 v50) (View.readAt (Elt Ideal) arg5.view (rowsOf k).toLoadRect X_arg5) (View.readAt (Elt Ideal) arg19.view (rowsOf k).toLoadRect X_arg19) (ix2 r h)
      = expoB v50 (arg5.view.read (Elt Ideal) X_arg5) (arg19.view.read (Elt Ideal) X_arg19) ((rowsOf k).emb (ix2 r h)) := by
  rw [expoS_apply, pay3_self]
  unfold expoB
  rw [rowsOf_col]
  rfl
theorem gated_piece (k : Fin k0_t1_loop.trips) (r : Fin 64) (h : Fin 1024) :
    k0_pay6 (k0_pay4 v52) (View.readAt (Elt Ideal) arg3.view (rowsOf k).toLoadRect X_arg3) (View.readAt (Elt Ideal) arg4.view (rowsOf k).toLoadRect X_arg4) (View.readAt (Elt Ideal) arg5.view (rowsOf k).toLoadRect X_arg5) (View.readAt (Elt Ideal) arg19.view (rowsOf k).toLoadRect X_arg19) (View.readAt (Elt Ideal) arg20.view (rowsOf k).toLoadRect X_arg20) (View.readAt (Elt Ideal) arg21.view (rowsOf k).toLoadRect X_arg21) (ix2 r h)
      = gatedB v52 (arg3.view.read (Elt Ideal) X_arg3) (arg4.view.read (Elt Ideal) X_arg4) (arg5.view.read (Elt Ideal) X_arg5) (arg19.view.read (Elt Ideal) X_arg19) (arg20.view.read (Elt Ideal) X_arg20) (arg21.view.read (Elt Ideal) X_arg21) ((rowsOf k).emb (ix2 r h)) := by
  rw [gatedS_apply, pay4_self]
  unfold gatedB
  rw [rowsOf_col]
  rfl

variable (G_arg16 : BufTy.Contents (Elt Ideal) arg16.view.ty) (G_arg17 : BufTy.Contents (Elt Ideal) arg17.view.ty) (G_arg18 : BufTy.Contents (Elt Ideal) arg18.view.ty) (G_arg22 : BufTy.Contents (Elt Ideal) arg22.view.ty)

/-- AFTER n TRIPS each of the four lists of stores restricts its block function: by induction on the trips, each trip
    adding its one store in front. -/
theorem stores_agree (n : ℕ) (hn : n ≤ k0_t1_loop.trips) :
    Agrees (numB v50 (arg3.view.read (Elt Ideal) X_arg3) (arg5.view.read (Elt Ideal) X_arg5) (arg19.view.read (Elt Ideal) X_arg19) (arg20.view.read (Elt Ideal) X_arg20)) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 n).1
    ∧ Agrees (denB v50 (arg4.view.read (Elt Ideal) X_arg4) (arg5.view.read (Elt Ideal) X_arg5) (arg19.view.read (Elt Ideal) X_arg19)) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 n).2.1
    ∧ Agrees (expoB v50 (arg5.view.read (Elt Ideal) X_arg5) (arg19.view.read (Elt Ideal) X_arg19)) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 n).2.2.1
    ∧ Agrees (gatedB v52 (arg3.view.read (Elt Ideal) X_arg3) (arg4.view.read (Elt Ideal) X_arg4) (arg5.view.read (Elt Ideal) X_arg5) (arg19.view.read (Elt Ideal) X_arg19) (arg20.view.read (Elt Ideal) X_arg20) (arg21.view.read (Elt Ideal) X_arg21)) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 n).2.2.2 := by
  induction n with
  | zero => exact ⟨agrees_nil _, agrees_nil _, agrees_nil _, agrees_nil _⟩
  | succ n ih =>
    have hlt : n < k0_t1_loop.trips := hn
    obtain ⟨a1, a2, a3, a4⟩ := ih (Nat.le_of_lt hlt)
    have e := stores_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v52 X_arg3 X_arg4 X_arg5 X_arg19 X_arg20 X_arg21 G_arg16 G_arg17 G_arg18 G_arg22 ⟨n, hlt⟩
    dsimp only at e
    rw [e]
    exact ⟨agrees_cons _ ⟨n, hlt⟩ _ _ (num_piece _ _ _ _ _ _ _ _ _ ⟨n, hlt⟩) a1,
      agrees_cons _ ⟨n, hlt⟩ _ _ (den_piece _ _ _ _ _ _ _ ⟨n, hlt⟩) a2,
      agrees_cons _ ⟨n, hlt⟩ _ _ (expo_piece _ _ _ _ _ ⟨n, hlt⟩) a3,
      agrees_cons _ ⟨n, hlt⟩ _ _ (gated_piece _ _ _ _ _ _ _ _ _ _ _ _ _ ⟨n, hlt⟩) a4⟩

end Trips

end Cert.KernelIdeal.Loop

end
-- ==== Proof.KernelBlockAlg.lean ====
/-
  The block functions of one grid point are the specification's results over the point's 256 batch entries.

  The new numerator, denominator and exponent of the 256-row block, and its gated weighted value, are entrywise
  expressions of the block's state rows, of the key, value and receptance projections of the block, and of a parameter
  row.  At entry (r, o) each projection is the specification's projection of batch entry r at feature o, so the three
  state blocks are the specification's new-state arrays over the 256 entries; and the gated block against the rows of
  the output matrix is, at (r, o), the sum over features of the gated row of entry r against row o of the matrix: the
  specification's output.
-/
import proofs.«413805_j24764781429091_3_alg».proof.Proof.KernelLoop

noncomputable section

namespace Cert.KernelIdeal.BlkAlg

open Cert.KernelIdeal Cert.KernelIdeal.Loop Cert.KernelIdeal.Pay Cert.KernelIdeal.Gen Cert.TimeMix
open Idealize.ShloMosaic Idealize.ShloMosaic.ValueIdx

variable (x0 x1 x2 x3 x4 : Vec Ideal S256x1024 .f32) (x5 x6 x7 x8 x9 : Vec Ideal S1x1024 .f32)
  (x10 x11 x12 x13 : Vec Ideal S1024x1024 .bf16)

/-- The block's new numerator is the specification's new numerator of its 256 entries: at (r, o) both are the scalar
    update of entry r's state at feature o, with entry r's key and value projections at o and the decay at o. -/
theorem num_blk :
    numB x8 x2 x4 (k0_pay15 x0 x1 x5 x10) (k0_pay1 (k0_pay13 x0 x1 x6) x11)
      = numArr (n := 256) (paramsOfBlocks x8 x9 x5 x6 x7 x10 x11 x12 x13) x0 x1 x2 x4 := by
  funext y
  obtain ⟨r, o, rfl⟩ : ∃ (r : Fin 256) (o : Fin 1024), y = ix2 r o := ⟨y 0, y 1, eq_ix2 y⟩
  unfold numB
  show numE (x2 (ix2 r o)) (x4 (ix2 r o)) (k0_pay15 x0 x1 x5 x10 (ix2 r o)) (k0_pay1 (k0_pay13 x0 x1 x6) x11 (ix2 r o))
    (x8 (ix2 (0 : Fin 1) o)) = _
  rw [kBlk_apply, vBlk_apply]
  rfl

/-- The block's new denominator is the specification's new denominator of its 256 entries. -/
theorem den_blk :
    denB x8 x3 x4 (k0_pay15 x0 x1 x5 x10)
      = denArr (n := 256) (paramsOfBlocks x8 x9 x5 x6 x7 x10 x11 x12 x13) x0 x1 x3 x4 := by
  funext y
  obtain ⟨r, o, rfl⟩ : ∃ (r : Fin 256) (o : Fin 1024), y = ix2 r o := ⟨y 0, y 1, eq_ix2 y⟩
  unfold denB
  show denE (x3 (ix2 r o)) (x4 (ix2 r o)) (k0_pay15 x0 x1 x5 x10 (ix2 r o)) (x8 (ix2 (0 : Fin 1) o)) = _
  rw [kBlk_apply]
  rfl

/-- The block's new exponent is the specification's new exponent of its 256 entries. -/
theorem expo_blk :
    expoB x8 x4 (k0_pay15 x0 x1 x5 x10)
      = expoArr (n := 256) (paramsOfBlocks x8 x9 x5 x6 x7 x10 x11 x12 x13) x0 x1 x4 := by
  funext y
  obtain ⟨r, o, rfl⟩ : ∃ (r : Fin 256) (o : Fin 1024), y = ix2 r o := ⟨y 0, y 1, eq_ix2 y⟩
  unfold expoB
  show expoE (x4 (ix2 r o)) (k0_pay15 x0 x1 x5 x10 (ix2 r o)) (x8 (ix2 (0 : Fin 1) o)) = _
  rw [kBlk_apply]
  rfl

/-- The gated block against the rows of the output matrix is the specification's output of the 256 entries: at (r, o)
    both are the sum over features h of entry r's gated value at h times the matrix's entry (o, h). -/
theorem out_blk :
    k0_pay5 (gatedB x9 x2 x3 x4 (k0_pay15 x0 x1 x5 x10) (k0_pay1 (k0_pay13 x0 x1 x6) x11) (k0_pay2 (k0_pay14 x0 x1 x7) x12)) x13
      = outArr (n := 256) (paramsOfBlocks x8 x9 x5 x6 x7 x10 x11 x12 x13) x0 x1 x2 x3 x4 := by
  funext y
  obtain ⟨r, o, rfl⟩ : ∃ (r : Fin 256) (o : Fin 1024), y = ix2 r o := ⟨y 0, y 1, eq_ix2 y⟩
  rw [outBlk_apply]
  show _ = ∑ h : Fin 1024, gatedRow (paramsOfBlocks x8 x9 x5 x6 x7 x10 x11 x12 x13) (rowOf x0 r) (rowOf x1 r) (rowOf x2 r)
    (rowOf x3 r) (rowOf x4 r) h * x13 (ix2 o h)
  refine Finset.sum_congr rfl fun h _ => ?_
  congr 1
  unfold gatedB
  show gatedE (x2 (ix2 r h)) (x3 (ix2 r h)) (x4 (ix2 r h)) (k0_pay15 x0 x1 x5 x10 (ix2 r h))
    (k0_pay1 (k0_pay13 x0 x1 x6) x11 (ix2 r h)) (k0_pay2 (k0_pay14 x0 x1 x7) x12 (ix2 r h)) (x9 (ix2 (0 : Fin 1) h)) = _
  rw [kBlk_apply, vBlk_apply, rBlk_apply]
  rfl

end Cert.KernelIdeal.BlkAlg

end
-- ==== Proof.KernelBlock.lean ====
/-
  What one grid point leaves in the four output blocks, as the specification's functions of the point's input blocks.

  The point's fourteen input blocks are named at their literal types: five 256 × 1024 blocks of the batch arrays (token,
  previous token, numerator, denominator, exponent), five 1 × 1024 parameter rows and four 1024 × 1024 weight matrices.
  The body first leaves the three projections of the mixed tokens in scratch, each by one store of the whole block; the
  loop then fills, 64 rows a trip, the new numerator, denominator and exponent blocks and the gated-value scratch, every
  entry of which reads its block function once the four trips have covered the 256 rows; the last store is the gated
  block against the rows of the output matrix.
-/
import proofs.«413805_j24764781429091_3_alg».proof.Proof.KernelIdealValue
import proofs.«413805_j24764781429091_3_alg».proof.Proof.KernelLoop
import proofs.«413805_j24764781429091_3_alg».proof.Proof.KernelBlockAlg

set_option maxRecDepth 16384

noncomputable section

namespace Cert.KernelIdeal.Blk

open Cert.KernelIdeal Cert.KernelIdeal.Gen Cert.TimeMix Idealize.ShloMosaic Idealize.ShloMosaic.TcCoe Idealize.SL.Sem
open Idealize.ShloMosaic.ValueIdx Idealize.ShloMosaic.Tactic

theorem hz : (![0, 0] : Fin 2 → Nat) = fun _ => 0 := funext fun a => by fin_cases a <;> rfl

section Body

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .bf16) (harg22 : arg22.IsWhole) (x0 : Vec Ideal S256x1024 .f32) (x1 : Vec Ideal S256x1024 .f32) (x2 : Vec Ideal S256x1024 .f32) (x3 : Vec Ideal S256x1024 .f32) (x4 : Vec Ideal S256x1024 .f32) (x5 : Vec Ideal S1x1024 .f32) (x6 : Vec Ideal S1x1024 .f32) (x7 : Vec Ideal S1x1024 .f32) (x8 : Vec Ideal S1x1024 .f32) (x9 : Vec Ideal S1x1024 .f32) (x10 : Vec Ideal S1024x1024 .bf16) (x11 : Vec Ideal S1024x1024 .bf16) (x12 : Vec Ideal S1024x1024 .bf16) (x13 : Vec Ideal S1024x1024 .bf16)

/-- The new-numerator block: every entry is covered by one of the loop's four stores, each of which restricts the
    block function; the loop's loads read the numerator and exponent blocks and the key and value projections left in
    scratch. -/
theorem num_out : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 = numArr (paramsOfBlocks x8 x9 x5 x6 x7 x10 x11 x12 x13) x0 x1 x2 x4 := by
  unfold out0_A_15 kernelRun0_A
  dsimp only
  funext y
  refine (View.read_writes_apply_of_pieces VO0_15 VO0_15.junk _ _ (Loop.stores_agree Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ _ _ _ (Nat.le_refl _)).1 y
    (Stores.covers_all _ (Stores.stores_cover (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ _ _ _ (Nat.le_refl _)).1 y)).trans ?_
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.read_writes_junk_eq_canon, View.canon_unit_zero (S := S256x1024) hz,
    View.ld_unit_zero (S := S256x1024) hz, View.ld_unit_zero (S := S1x1024) hz, View.ld_unit_zero (S := S1024x1024) hz]
  exact congrFun (BlkAlg.num_blk _ _ _ _ _ _ _ _ _ _ _ _ _) y

/-- The new-denominator block, likewise. -/
theorem den_out : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 = denArr (paramsOfBlocks x8 x9 x5 x6 x7 x10 x11 x12 x13) x0 x1 x3 x4 := by
  unfold out0_A_16 kernelRun0_A
  dsimp only
  funext y
  refine (View.read_writes_apply_of_pieces VO0_16 VO0_16.junk _ _ (Loop.stores_agree Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ _ _ _ (Nat.le_refl _)).2.1 y
    (Stores.covers_all _ (Stores.stores_cover (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ _ _ _ (Nat.le_refl _)).2.1 y)).trans ?_
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.read_writes_junk_eq_canon, View.canon_unit_zero (S := S256x1024) hz,
    View.ld_unit_zero (S := S256x1024) hz, View.ld_unit_zero (S := S1x1024) hz, View.ld_unit_zero (S := S1024x1024) hz]
  exact congrFun (BlkAlg.den_blk _ _ _ _ _ _ _ _ _ _ _ _ _) y

/-- The new-exponent block, likewise. -/
theorem expo_out : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 = expoArr (paramsOfBlocks x8 x9 x5 x6 x7 x10 x11 x12 x13) x0 x1 x4 := by
  unfold out0_A_17 kernelRun0_A
  dsimp only
  funext y
  refine (View.read_writes_apply_of_pieces VO0_17 VO0_17.junk _ _ (Loop.stores_agree Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ _ _ _ (Nat.le_refl _)).2.2.1 y
    (Stores.covers_all _ (Stores.stores_cover (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ _ _ _ (Nat.le_refl _)).2.2.1 y)).trans ?_
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.read_writes_junk_eq_canon, View.canon_unit_zero (S := S256x1024) hz,
    View.ld_unit_zero (S := S256x1024) hz, View.ld_unit_zero (S := S1x1024) hz, View.ld_unit_zero (S := S1024x1024) hz]
  exact congrFun (BlkAlg.expo_blk _ _ _ _ _ _ _ _ _ _ _ _) y

/-- The output block: one store of the gated-value scratch, read back whole after the loop, against the rows of the
    output matrix; every entry of that scratch reads the gated block function. -/
theorem out_out : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 = outArr (paramsOfBlocks x8 x9 x5 x6 x7 x10 x11 x12 x13) x0 x1 x2 x3 x4 := by
  unfold out0_A_14 kernelRun0_A
  dsimp only
  rw [View.read_writes_junk_eq_canon, View.canon_unit_zero (S := S256x1024) hz, ← BlkAlg.out_blk x0 x1 x2 x3 x4 x5 x6 x7 x8 x9 x10 x11 x12 x13]
  congr 1
  · funext y
    rw [View.readAt_eq_ld, View.ld_unit_zero (S := S256x1024) hz]
    refine (View.read_writes_apply_of_pieces arg22.view arg22.view.junk _ _ (Loop.stores_agree Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ _ _ _ (Nat.le_refl _)).2.2.2 y
      (Stores.covers_all _ (Stores.stores_cover (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ _ _ _ (Nat.le_refl _)).2.2.2 y)).trans ?_
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.read_writes_junk_eq_canon, View.canon_unit_zero (S := S256x1024) hz,
    View.ld_unit_zero (S := S256x1024) hz, View.ld_unit_zero (S := S1x1024) hz, View.ld_unit_zero (S := S1024x1024) hz]
  · simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.read_writes_junk_eq_canon, View.canon_unit_zero (S := S256x1024) hz,
    View.ld_unit_zero (S := S256x1024) hz, View.ld_unit_zero (S := S1x1024) hz, View.ld_unit_zero (S := S1024x1024) hz]

end Body

variable (m : (ℓ : Loc nD τ sig) → Buf (Elt Ideal) ℓ)

/-- The input blocks of point `t`, at their literal types. -/
abbrev b0 (c : Dev nD) (t : Fin cfg0.N) : Vec Ideal S256x1024 .f32 := iblk m c 0 t
abbrev b1 (c : Dev nD) (t : Fin cfg0.N) : Vec Ideal S256x1024 .f32 := iblk m c 1 t
abbrev b2 (c : Dev nD) (t : Fin cfg0.N) : Vec Ideal S256x1024 .f32 := iblk m c 2 t
abbrev b3 (c : Dev nD) (t : Fin cfg0.N) : Vec Ideal S256x1024 .f32 := iblk m c 3 t
abbrev b4 (c : Dev nD) (t : Fin cfg0.N) : Vec Ideal S256x1024 .f32 := iblk m c 4 t
abbrev b5 (c : Dev nD) (t : Fin cfg0.N) : Vec Ideal S1x1024 .f32 := iblk m c 5 t
abbrev b6 (c : Dev nD) (t : Fin cfg0.N) : Vec Ideal S1x1024 .f32 := iblk m c 6 t
abbrev b7 (c : Dev nD) (t : Fin cfg0.N) : Vec Ideal S1x1024 .f32 := iblk m c 7 t
abbrev b8 (c : Dev nD) (t : Fin cfg0.N) : Vec Ideal S1x1024 .f32 := iblk m c 8 t
abbrev b9 (c : Dev nD) (t : Fin cfg0.N) : Vec Ideal S1x1024 .f32 := iblk m c 9 t
abbrev b10 (c : Dev nD) (t : Fin cfg0.N) : Vec Ideal S1024x1024 .bf16 := iblk m c 10 t
abbrev b11 (c : Dev nD) (t : Fin cfg0.N) : Vec Ideal S1024x1024 .bf16 := iblk m c 11 t
abbrev b12 (c : Dev nD) (t : Fin cfg0.N) : Vec Ideal S1024x1024 .bf16 := iblk m c 12 t
abbrev b13 (c : Dev nD) (t : Fin cfg0.N) : Vec Ideal S1024x1024 .bf16 := iblk m c 13 t

/-- The layer's parameters as point `t` finds them in its blocks: windows 8 and 9 hold the decay and the first-token
    bonus, windows 5, 6, 7 the key, value and receptance mixing rows, windows 10 to 13 the four matrices. -/
def paramsAt (c : Dev nD) (t : Fin cfg0.N) : Params :=
  paramsOfBlocks (b8 m c t) (b9 m c t) (b5 m c t) (b6 m c t) (b7 m c t) (b10 m c t) (b11 m c t) (b12 m c t) (b13 m c t)

set_option maxHeartbeats 8000000 in
/-- WHAT POINT `t` LEAVES in the four output blocks: the output, the new numerator, the new denominator and the new
    exponent of the point's 256 batch entries. -/
theorem outsAt_eq (c : Dev nD) (t : Fin cfg0.N) :
    outsAt0 m c t
      = (outArr (paramsAt m c t) (b0 m c t) (b1 m c t) (b2 m c t) (b3 m c t) (b4 m c t),
         numArr (paramsAt m c t) (b0 m c t) (b1 m c t) (b2 m c t) (b4 m c t),
         denArr (paramsAt m c t) (b0 m c t) (b1 m c t) (b3 m c t) (b4 m c t),
         expoArr (paramsAt m c t) (b0 m c t) (b1 m c t) (b4 m c t)) := by
  unfold outsAt0 paramsAt
  refine Prod.ext ?_ (Prod.ext ?_ (Prod.ext ?_ ?_))
  · exact out_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (b0 m c t) (b1 m c t) (b2 m c t) (b3 m c t) (b4 m c t) (b5 m c t) (b6 m c t) (b7 m c t) (b8 m c t) (b9 m c t) (b10 m c t) (b11 m c t) (b12 m c t) (b13 m c t)
  · exact num_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (b0 m c t) (b1 m c t) (b2 m c t) (b3 m c t) (b4 m c t) (b5 m c t) (b6 m c t) (b7 m c t) (b8 m c t) (b9 m c t) (b10 m c t) (b11 m c t) (b12 m c t) (b13 m c t)
  · exact den_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (b0 m c t) (b1 m c t) (b2 m c t) (b3 m c t) (b4 m c t) (b5 m c t) (b6 m c t) (b7 m c t) (b8 m c t) (b9 m c t) (b10 m c t) (b11 m c t) (b12 m c t) (b13 m c t)
  · exact expo_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (b0 m c t) (b1 m c t) (b2 m c t) (b3 m c t) (b4 m c t) (b5 m c t) (b6 m c t) (b7 m c t) (b8 m c t) (b9 m c t) (b10 m c t) (b11 m c t) (b12 m c t) (b13 m c t)

end Cert.KernelIdeal.Blk

end
-- ==== Proof.KernelArray.lean ====
/-
  From one grid point's blocks to the whole result arrays.

  The 64 grid points cut the 16384 batch entries into blocks of 256: point t holds rows 256 t, …, 256 t + 255 of the
  five batch arrays (token, previous token, numerator, denominator, exponent) and leaves rows 256 t, …, 256 t + 255 of
  the four results.  Every point sees the same parameters: the five parameter rows, each staged as a 1 × 1024 array
  that is the argument's 1024 entries reshaped, and the four matrices, each a change of format of its argument, which
  is the identity on the extended reals.  A result of one batch entry depends on that entry's five rows and on the
  parameters only, so the four blocks point t leaves are rows 256 t, … of the four results taken over all 16384
  entries.  The blocks tile the arrays (row b lies in the block of point b / 256), so after the last point the four
  result arrays hold those results, and the arguments are as launched.
-/
import proofs.«413805_j24764781429091_3_alg».proof.Proof.KernelBlock
import Idealize.ShloMosaic.Lib.Pipeline.Value
import Idealize.ShloMosaic.Lib.StableHlo.Run
import Idealize.ShloMosaic.Lib.ValueLayout

noncomputable section

namespace Cert.KernelIdeal.Arr

open Cert.KernelIdeal Cert.KernelIdeal.Gen Cert.KernelIdeal.Blk Cert.TimeMix Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## The block index maps -/

/-- The five batch windows sit at block (t, 0) at point t (decided over the 64 grid points). -/
theorem idx_batch : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

/-- The nine parameter windows sit at block (0, 0) at every point. -/
theorem idx_param : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-- The four result windows sit at block (t, 0) at point t. -/
theorem idx_result : ∀ t : Fin cfg0.N,
    (win0_14.index t (0 : Fin 2) = t.val ∧ win0_14.index t (1 : Fin 2) = 0)
    ∧ (win0_15.index t (0 : Fin 2) = t.val ∧ win0_15.index t (1 : Fin 2) = 0)
    ∧ (win0_16.index t (0 : Fin 2) = t.val ∧ win0_16.index t (1 : Fin 2) = 0)
    ∧ (win0_17.index t (0 : Fin 2) = t.val ∧ win0_17.index t (1 : Fin 2) = 0) :=
  (by decide +kernel : ∀ t : Fin grid0.N, _)

/-! ## The batch blocks: rows 256 t, … of the arguments -/

/-- Entry (r, h) of point t's token block is entry (256 t + r, h) of the token array. -/
theorem b0_apply (c : Dev nD) (t : Fin cfg0.N) (r : Fin 256) (h : Fin 1024) (hr : 256 * t.val + r.val < 16384) :
    b0 m c t (ix2 r h)
      = (m ((c : Thread nD τ).loc main_arg0) : S16384x1024.Idx → EReal) (ix2 ⟨256 * t.val + r.val, hr⟩ h) := by
  obtain ⟨⟨e0, e1⟩, -⟩ := idx_batch t
  show iblk m c 0 t (ix2 r h) = _
  unfold iblk
  rw [View.read_apply]
  show V m c main_arg0 _ = _
  rw [V_main_arg0]
  congr 1
  funext a
  apply Fin.ext
  match a with
  | ⟨0, _⟩ => show win0_0.index t (0 : Fin 2) * 256 + 1 * r.val = 256 * t.val + r.val; rw [e0]; omega
  | ⟨1, _⟩ => show win0_0.index t (1 : Fin 2) * 1024 + 1 * h.val = h.val; rw [e1]; omega

/-- The same for the previous-token block. -/
theorem b1_apply (c : Dev nD) (t : Fin cfg0.N) (r : Fin 256) (h : Fin 1024) (hr : 256 * t.val + r.val < 16384) :
    b1 m c t (ix2 r h)
      = (m ((c : Thread nD τ).loc main_arg1) : S16384x1024.Idx → EReal) (ix2 ⟨256 * t.val + r.val, hr⟩ h) := by
  obtain ⟨-, ⟨e0, e1⟩, -⟩ := idx_batch t
  show iblk m c 1 t (ix2 r h) = _
  unfold iblk
  rw [View.read_apply]
  show V m c main_arg1 _ = _
  rw [V_main_arg1]
  congr 1
  funext a
  apply Fin.ext
  match a with
  | ⟨0, _⟩ => show win0_1.index t (0 : Fin 2) * 256 + 1 * r.val = 256 * t.val + r.val; rw [e0]; omega
  | ⟨1, _⟩ => show win0_1.index t (1 : Fin 2) * 1024 + 1 * h.val = h.val; rw [e1]; omega

/-- The same for the numerator block. -/
theorem b2_apply (c : Dev nD) (t : Fin cfg0.N) (r : Fin 256) (h : Fin 1024) (hr : 256 * t.val + r.val < 16384) :
    b2 m c t (ix2 r h)
      = (m ((c : Thread nD τ).loc main_arg2) : S16384x1024.Idx → EReal) (ix2 ⟨256 * t.val + r.val, hr⟩ h) := by
  obtain ⟨-, -, ⟨e0, e1⟩, -⟩ := idx_batch t
  show iblk m c 2 t (ix2 r h) = _
  unfold iblk
  rw [View.read_apply]
  show V m c main_arg2 _ = _
  rw [V_main_arg2]
  congr 1
  funext a
  apply Fin.ext
  match a with
  | ⟨0, _⟩ => show win0_2.index t (0 : Fin 2) * 256 + 1 * r.val = 256 * t.val + r.val; rw [e0]; omega
  | ⟨1, _⟩ => show win0_2.index t (1 : Fin 2) * 1024 + 1 * h.val = h.val; rw [e1]; omega

/-- The same for the denominator block. -/
theorem b3_apply (c : Dev nD) (t : Fin cfg0.N) (r : Fin 256) (h : Fin 1024) (hr : 256 * t.val + r.val < 16384) :
    b3 m c t (ix2 r h)
      = (m ((c : Thread nD τ).loc main_arg3) : S16384x1024.Idx → EReal) (ix2 ⟨256 * t.val + r.val, hr⟩ h) := by
  obtain ⟨-, -, -, ⟨e0, e1⟩, -⟩ := idx_batch t
  show iblk m c 3 t (ix2 r h) = _
  unfold iblk
  rw [View.read_apply]
  show V m c main_arg3 _ = _
  rw [V_main_arg3]
  congr 1
  funext a
  apply Fin.ext
  match a with
  | ⟨0, _⟩ => show win0_3.index t (0 : Fin 2) * 256 + 1 * r.val = 256 * t.val + r.val; rw [e0]; omega
  | ⟨1, _⟩ => show win0_3.index t (1 : Fin 2) * 1024 + 1 * h.val = h.val; rw [e1]; omega

/-- The same for the exponent block. -/
theorem b4_apply (c : Dev nD) (t : Fin cfg0.N) (r : Fin 256) (h : Fin 1024) (hr : 256 * t.val + r.val < 16384) :
    b4 m c t (ix2 r h)
      = (m ((c : Thread nD τ).loc main_arg4) : S16384x1024.Idx → EReal) (ix2 ⟨256 * t.val + r.val, hr⟩ h) := by
  obtain ⟨-, -, -, -, e0, e1⟩ := idx_batch t
  show iblk m c 4 t (ix2 r h) = _
  unfold iblk
  rw [View.read_apply]
  show V m c main_arg4 _ = _
  rw [V_main_arg4]
  congr 1
  funext a
  apply Fin.ext
  match a with
  | ⟨0, _⟩ => show win0_4.index t (0 : Fin 2) * 256 + 1 * r.val = 256 * t.val + r.val; rw [e0]; omega
  | ⟨1, _⟩ => show win0_4.index t (1 : Fin 2) * 1024 + 1 * h.val = h.val; rw [e1]; omega

/-- So row r of each batch block at point t is row 256 t + r of its array. -/
theorem row0 (c : Dev nD) (t : Fin cfg0.N) (r : Fin 256) (hr : 256 * t.val + r.val < 16384) :
    rowOf (b0 m c t) r = rowOf (n := 16384) (m ((c : Thread nD τ).loc main_arg0)) ⟨256 * t.val + r.val, hr⟩ :=
  funext fun h => b0_apply m c t r h hr
theorem row1 (c : Dev nD) (t : Fin cfg0.N) (r : Fin 256) (hr : 256 * t.val + r.val < 16384) :
    rowOf (b1 m c t) r = rowOf (n := 16384) (m ((c : Thread nD τ).loc main_arg1)) ⟨256 * t.val + r.val, hr⟩ :=
  funext fun h => b1_apply m c t r h hr
theorem row2 (c : Dev nD) (t : Fin cfg0.N) (r : Fin 256) (hr : 256 * t.val + r.val < 16384) :
    rowOf (b2 m c t) r = rowOf (n := 16384) (m ((c : Thread nD τ).loc main_arg2)) ⟨256 * t.val + r.val, hr⟩ :=
  funext fun h => b2_apply m c t r h hr
theorem row3 (c : Dev nD) (t : Fin cfg0.N) (r : Fin 256) (hr : 256 * t.val + r.val < 16384) :
    rowOf (b3 m c t) r = rowOf (n := 16384) (m ((c : Thread nD τ).loc main_arg3)) ⟨256 * t.val + r.val, hr⟩ :=
  funext fun h => b3_apply m c t r h hr
theorem row4 (c : Dev nD) (t : Fin cfg0.N) (r : Fin 256) (hr : 256 * t.val + r.val < 16384) :
    rowOf (b4 m c t) r = rowOf (n := 16384) (m ((c : Thread nD τ).loc main_arg4)) ⟨256 * t.val + r.val, hr⟩ :=
  funext fun h => b4_apply m c t r h hr

/-! ## The parameter blocks: the arguments themselves -/

/-- The array the key mixing row's window stages is the argument's 1024 entries as a 1 × 1024 array. -/
theorem V_v4 (c : Dev nD) : (V m c main_v4 : S1x1024.Idx → EReal)
    = shapeCast S1x1024 (m ((c : Thread nD τ).loc main_arg7)) shapeCasts_S1024_S1x1024 := by
  dsimp only [Gen.V, Gen.hostOps0]
  after_results
  rfl
/-- The same for the value mixing row, -/
theorem V_v5 (c : Dev nD) : (V m c main_v5 : S1x1024.Idx → EReal)
    = shapeCast S1x1024 (m ((c : Thread nD τ).loc main_arg8)) shapeCasts_S1024_S1x1024 := by
  dsimp only [Gen.V, Gen.hostOps0]
  after_results
  rfl
/-- the receptance mixing row, -/
theorem V_v6 (c : Dev nD) : (V m c main_v6 : S1x1024.Idx → EReal)
    = shapeCast S1x1024 (m ((c : Thread nD τ).loc main_arg9)) shapeCasts_S1024_S1x1024 := by
  dsimp only [Gen.V, Gen.hostOps0]
  after_results
  rfl
/-- the decay, -/
theorem V_v7 (c : Dev nD) : (V m c main_v7 : S1x1024.Idx → EReal)
    = shapeCast S1x1024 (m ((c : Thread nD τ).loc main_arg5)) shapeCasts_S1024_S1x1024 := by
  dsimp only [Gen.V, Gen.hostOps0]
  after_results
  rfl
/-- and the first-token bonus. -/
theorem V_v8 (c : Dev nD) : (V m c main_v8 : S1x1024.Idx → EReal)
    = shapeCast S1x1024 (m ((c : Thread nD τ).loc main_arg6)) shapeCasts_S1024_S1x1024 := by
  dsimp only [Gen.V, Gen.hostOps0]
  after_results
  rfl

/-- The array the key matrix's window stages is the argument in the narrower format: over the extended reals, the
    argument. -/
theorem V_v0 (c : Dev nD) : (V m c main_v0 : S1024x1024.Idx → EReal)
    = (m ((c : Thread nD τ).loc main_arg10) : S1024x1024.Idx → EReal) := by
  dsimp only [Gen.V, Gen.hostOps0]
  after_results
  rfl
/-- The same for the value matrix, -/
theorem V_v1 (c : Dev nD) : (V m c main_v1 : S1024x1024.Idx → EReal)
    = (m ((c : Thread nD τ).loc main_arg11) : S1024x1024.Idx → EReal) := by
  dsimp only [Gen.V, Gen.hostOps0]
  after_results
  rfl
/-- the receptance matrix, -/
theorem V_v2 (c : Dev nD) : (V m c main_v2 : S1024x1024.Idx → EReal)
    = (m ((c : Thread nD τ).loc main_arg12) : S1024x1024.Idx → EReal) := by
  dsimp only [Gen.V, Gen.hostOps0]
  after_results
  rfl
/-- and the output matrix. -/
theorem V_v3 (c : Dev nD) : (V m c main_v3 : S1024x1024.Idx → EReal)
    = (m ((c : Thread nD τ).loc main_arg13) : S1024x1024.Idx → EReal) := by
  dsimp only [Gen.V, Gen.hostOps0]
  after_results
  rfl

/-- Entry (0, h) of the key mixing row's block, at any point, is entry h of the argument. -/
theorem b5_apply (c : Dev nD) (t : Fin cfg0.N) (h : Fin 1024) :
    b5 m c t (ix2 0 h) = (m ((c : Thread nD τ).loc main_arg7) : S1024.Idx → EReal) (ix1 h) := by
  obtain ⟨⟨e0, e1⟩, -⟩ := idx_param t
  show iblk m c 5 t (ix2 0 h) = _
  unfold iblk
  rw [View.read_apply]
  show V m c main_v4 _ = _
  rw [V_v4]
  refine Eq.trans ?_ (shapeCast_a_1a_apply (m ((c : Thread nD τ).loc main_arg7)) shapeCasts_S1024_S1x1024 0 h)
  congr 1
  funext a
  apply Fin.ext
  match a with
  | ⟨0, _⟩ => show win0_5.index t (0 : Fin 2) * 1 + 1 * 0 = 0; rw [e0]
  | ⟨1, _⟩ => show win0_5.index t (1 : Fin 2) * 1024 + 1 * h.val = h.val; rw [e1]; omega

/-- The same for the value mixing row's block, -/
theorem b6_apply (c : Dev nD) (t : Fin cfg0.N) (h : Fin 1024) :
    b6 m c t (ix2 0 h) = (m ((c : Thread nD τ).loc main_arg8) : S1024.Idx → EReal) (ix1 h) := by
  obtain ⟨-, ⟨e0, e1⟩, -⟩ := idx_param t
  show iblk m c 6 t (ix2 0 h) = _
  unfold iblk
  rw [View.read_apply]
  show V m c main_v5 _ = _
  rw [V_v5]
  refine Eq.trans ?_ (shapeCast_a_1a_apply (m ((c : Thread nD τ).loc main_arg8)) shapeCasts_S1024_S1x1024 0 h)
  congr 1
  funext a
  apply Fin.ext
  match a with
  | ⟨0, _⟩ => show win0_6.index t (0 : Fin 2) * 1 + 1 * 0 = 0; rw [e0]
  | ⟨1, _⟩ => show win0_6.index t (1 : Fin 2) * 1024 + 1 * h.val = h.val; rw [e1]; omega

/-- the receptance mixing row's, -/
theorem b7_apply (c : Dev nD) (t : Fin cfg0.N) (h : Fin 1024) :
    b7 m c t (ix2 0 h) = (m ((c : Thread nD τ).loc main_arg9) : S1024.Idx → EReal) (ix1 h) := by
  obtain ⟨-, -, ⟨e0, e1⟩, -⟩ := idx_param t
  show iblk m c 7 t (ix2 0 h) = _
  unfold iblk
  rw [View.read_apply]
  show V m c main_v6 _ = _
  rw [V_v6]
  refine Eq.trans ?_ (shapeCast_a_1a_apply (m ((c : Thread nD τ).loc main_arg9)) shapeCasts_S1024_S1x1024 0 h)
  congr 1
  funext a
  apply Fin.ext
  match a with
  | ⟨0, _⟩ => show win0_7.index t (0 : Fin 2) * 1 + 1 * 0 = 0; rw [e0]
  | ⟨1, _⟩ => show win0_7.index t (1 : Fin 2) * 1024 + 1 * h.val = h.val; rw [e1]; omega

/-- the decay's, -/
theorem b8_apply (c : Dev nD) (t : Fin cfg0.N) (h : Fin 1024) :
    b8 m c t (ix2 0 h) = (m ((c : Thread nD τ).loc main_arg5) : S1024.Idx → EReal) (ix1 h) := by
  obtain ⟨-, -, -, ⟨e0, e1⟩, -⟩ := idx_param t
  show iblk m c 8 t (ix2 0 h) = _
  unfold iblk
  rw [View.read_apply]
  show V m c main_v7 _ = _
  rw [V_v7]
  refine Eq.trans ?_ (shapeCast_a_1a_apply (m ((c : Thread nD τ).loc main_arg5)) shapeCasts_S1024_S1x1024 0 h)
  congr 1
  funext a
  apply Fin.ext
  match a with
  | ⟨0, _⟩ => show win0_8.index t (0 : Fin 2) * 1 + 1 * 0 = 0; rw [e0]
  | ⟨1, _⟩ => show win0_8.index t (1 : Fin 2) * 1024 + 1 * h.val = h.val; rw [e1]; omega

/-- and the first-token bonus's. -/
theorem b9_apply (c : Dev nD) (t : Fin cfg0.N) (h : Fin 1024) :
    b9 m c t (ix2 0 h) = (m ((c : Thread nD τ).loc main_arg6) : S1024.Idx → EReal) (ix1 h) := by
  obtain ⟨-, -, -, -, ⟨e0, e1⟩, -⟩ := idx_param t
  show iblk m c 9 t (ix2 0 h) = _
  unfold iblk
  rw [View.read_apply]
  show V m c main_v8 _ = _
  rw [V_v8]
  refine Eq.trans ?_ (shapeCast_a_1a_apply (m ((c : Thread nD τ).loc main_arg6)) shapeCasts_S1024_S1x1024 0 h)
  congr 1
  funext a
  apply Fin.ext
  match a with
  | ⟨0, _⟩ => show win0_9.index t (0 : Fin 2) * 1 + 1 * 0 = 0; rw [e0]
  | ⟨1, _⟩ => show win0_9.index t (1 : Fin 2) * 1024 + 1 * h.val = h.val; rw [e1]; omega

/-- Entry (o, h) of the key matrix's block, at any point, is entry (o, h) of the argument. -/
theorem b10_apply (c : Dev nD) (t : Fin cfg0.N) (o h : Fin 1024) :
    b10 m c t (ix2 o h) = (m ((c : Thread nD τ).loc main_arg10) : S1024x1024.Idx → EReal) (ix2 o h) := by
  obtain ⟨-, -, -, -, -, ⟨e0, e1⟩, -⟩ := idx_param t
  show iblk m c 10 t (ix2 o h) = _
  unfold iblk
  rw [View.read_apply]
  show V m c main_v0 _ = _
  rw [V_v0]
  congr 1
  funext a
  apply Fin.ext
  match a with
  | ⟨0, _⟩ => show win0_10.index t (0 : Fin 2) * 1024 + 1 * o.val = o.val; rw [e0]; omega
  | ⟨1, _⟩ => show win0_10.index t (1 : Fin 2) * 1024 + 1 * h.val = h.val; rw [e1]; omega

/-- The same for the value matrix's block, -/
theorem b11_apply (c : Dev nD) (t : Fin cfg0.N) (o h : Fin 1024) :
    b11 m c t (ix2 o h) = (m ((c : Thread nD τ).loc main_arg11) : S1024x1024.Idx → EReal) (ix2 o h) := by
  obtain ⟨-, -, -, -, -, -, ⟨e0, e1⟩, -⟩ := idx_param t
  show iblk m c 11 t (ix2 o h) = _
  unfold iblk
  rw [View.read_apply]
  show V m c main_v1 _ = _
  rw [V_v1]
  congr 1
  funext a
  apply Fin.ext
  match a with
  | ⟨0, _⟩ => show win0_11.index t (0 : Fin 2) * 1024 + 1 * o.val = o.val; rw [e0]; omega
  | ⟨1, _⟩ => show win0_11.index t (1 : Fin 2) * 1024 + 1 * h.val = h.val; rw [e1]; omega

/-- the receptance matrix's, -/
theorem b12_apply (c : Dev nD) (t : Fin cfg0.N) (o h : Fin 1024) :
    b12 m c t (ix2 o h) = (m ((c : Thread nD τ).loc main_arg12) : S1024x1024.Idx → EReal) (ix2 o h) := by
  obtain ⟨-, -, -, -, -, -, -, ⟨e0, e1⟩, -⟩ := idx_param t
  show iblk m c 12 t (ix2 o h) = _
  unfold iblk
  rw [View.read_apply]
  show V m c main_v2 _ = _
  rw [V_v2]
  congr 1
  funext a
  apply Fin.ext
  match a with
  | ⟨0, _⟩ => show win0_12.index t (0 : Fin 2) * 1024 + 1 * o.val = o.val; rw [e0]; omega
  | ⟨1, _⟩ => show win0_12.index t (1 : Fin 2) * 1024 + 1 * h.val = h.val; rw [e1]; omega

/-- and the output matrix's. -/
theorem b13_apply (c : Dev nD) (t : Fin cfg0.N) (o h : Fin 1024) :
    b13 m c t (ix2 o h) = (m ((c : Thread nD τ).loc main_arg13) : S1024x1024.Idx → EReal) (ix2 o h) := by
  obtain ⟨-, -, -, -, -, -, -, -, e0, e1⟩ := idx_param t
  show iblk m c 13 t (ix2 o h) = _
  unfold iblk
  rw [View.read_apply]
  show V m c main_v3 _ = _
  rw [V_v3]
  congr 1
  funext a
  apply Fin.ext
  match a with
  | ⟨0, _⟩ => show win0_13.index t (0 : Fin 2) * 1024 + 1 * o.val = o.val; rw [e0]; omega
  | ⟨1, _⟩ => show win0_13.index t (1 : Fin 2) * 1024 + 1 * h.val = h.val; rw [e1]; omega

/-- The layer's parameters as the argument arrays hold them: decay, first-token bonus, the key, value and receptance
    mixing rows, and the key, value, receptance and output matrices. -/
def paramsM (c : Dev nD) : Params :=
  paramsOfArrays (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11))
    (m ((c : Thread nD τ).loc main_arg12)) (m ((c : Thread nD τ).loc main_arg13))

/-- Every point finds the same parameters in its blocks: the arguments'. -/
theorem paramsAt_eq (c : Dev nD) (t : Fin cfg0.N) : paramsAt m c t = paramsM m c := by
  unfold paramsAt paramsM paramsOfBlocks paramsOfArrays
  congr 1
  · funext h; exact b8_apply m c t h
  · funext h; exact b9_apply m c t h
  · funext h; exact b5_apply m c t h
  · funext h; exact b6_apply m c t h
  · funext h; exact b7_apply m c t h
  · funext o h; exact b10_apply m c t o h
  · funext o h; exact b11_apply m c t o h
  · funext o h; exact b12_apply m c t o h
  · funext o h; exact b13_apply m c t o h

/-! ## The results over a block of 256 entries are rows of the results over all 16384

Each result at (entry, feature) reads the entry's own rows only: when the rows of five 256-row blocks are rows
256 t, … of five 16384-row arrays, a result over the blocks at (r, h) is the result over the arrays at (256 t + r, h). -/

theorem outArr_rows (P : Params) {X SX SA SB SP : S16384x1024.Idx → EReal} {x sx sa sb sp : S256x1024.Idx → EReal} (tv : Nat)
    (hx : ∀ (r : Fin 256) (hr : 256 * tv + r.val < 16384), rowOf x r = rowOf (n := 16384) X ⟨256 * tv + r.val, hr⟩)
    (hsx : ∀ (r : Fin 256) (hr : 256 * tv + r.val < 16384), rowOf sx r = rowOf (n := 16384) SX ⟨256 * tv + r.val, hr⟩)
    (hsa : ∀ (r : Fin 256) (hr : 256 * tv + r.val < 16384), rowOf sa r = rowOf (n := 16384) SA ⟨256 * tv + r.val, hr⟩)
    (hsb : ∀ (r : Fin 256) (hr : 256 * tv + r.val < 16384), rowOf sb r = rowOf (n := 16384) SB ⟨256 * tv + r.val, hr⟩)
    (hsp : ∀ (r : Fin 256) (hr : 256 * tv + r.val < 16384), rowOf sp r = rowOf (n := 16384) SP ⟨256 * tv + r.val, hr⟩)
    (y : S256x1024.Idx) (i : S16384x1024.Idx) (h0 : (i 0).val = 256 * tv + (y 0).val) (h1 : (i 1).val = (y 1).val) :
    outArr (n := 256) P x sx sa sb sp y = outArr (n := 16384) P X SX SA SB SP i := by
  have hr : 256 * tv + (y 0).val < 16384 := h0 ▸ (i 0).isLt
  have e0 : i 0 = ⟨256 * tv + (y 0).val, hr⟩ := Fin.ext h0
  have e1 : i 1 = y 1 := Fin.ext h1
  show outRow P (rowOf x (y 0)) (rowOf sx (y 0)) (rowOf sa (y 0)) (rowOf sb (y 0)) (rowOf sp (y 0)) (y 1)
    = outRow P (rowOf X (i 0)) (rowOf SX (i 0)) (rowOf SA (i 0)) (rowOf SB (i 0)) (rowOf SP (i 0)) (i 1)
  rw [e0, e1, hx _ hr, hsx _ hr, hsa _ hr, hsb _ hr, hsp _ hr]
  rfl

theorem numArr_rows (P : Params) {X SX SA SP : S16384x1024.Idx → EReal} {x sx sa sp : S256x1024.Idx → EReal} (tv : Nat)
    (hx : ∀ (r : Fin 256) (hr : 256 * tv + r.val < 16384), rowOf x r = rowOf (n := 16384) X ⟨256 * tv + r.val, hr⟩)
    (hsx : ∀ (r : Fin 256) (hr : 256 * tv + r.val < 16384), rowOf sx r = rowOf (n := 16384) SX ⟨256 * tv + r.val, hr⟩)
    (hsa : ∀ (r : Fin 256) (hr : 256 * tv + r.val < 16384), rowOf sa r = rowOf (n := 16384) SA ⟨256 * tv + r.val, hr⟩)
    (hsp : ∀ (r : Fin 256) (hr : 256 * tv + r.val < 16384), rowOf sp r = rowOf (n := 16384) SP ⟨256 * tv + r.val, hr⟩)
    (y : S256x1024.Idx) (i : S16384x1024.Idx) (h0 : (i 0).val = 256 * tv + (y 0).val) (h1 : (i 1).val = (y 1).val) :
    numArr (n := 256) P x sx sa sp y = numArr (n := 16384) P X SX SA SP i := by
  have hr : 256 * tv + (y 0).val < 16384 := h0 ▸ (i 0).isLt
  have e0 : i 0 = ⟨256 * tv + (y 0).val, hr⟩ := Fin.ext h0
  have e1 : i 1 = y 1 := Fin.ext h1
  show numRow P (rowOf x (y 0)) (rowOf sx (y 0)) (rowOf sa (y 0)) (rowOf sp (y 0)) (y 1)
    = numRow P (rowOf X (i 0)) (rowOf SX (i 0)) (rowOf SA (i 0)) (rowOf SP (i 0)) (i 1)
  rw [e0, e1, hx _ hr, hsx _ hr, hsa _ hr, hsp _ hr]
  rfl

theorem denArr_rows (P : Params) {X SX SB SP : S16384x1024.Idx → EReal} {x sx sb sp : S256x1024.Idx → EReal} (tv : Nat)
    (hx : ∀ (r : Fin 256) (hr : 256 * tv + r.val < 16384), rowOf x r = rowOf (n := 16384) X ⟨256 * tv + r.val, hr⟩)
    (hsx : ∀ (r : Fin 256) (hr : 256 * tv + r.val < 16384), rowOf sx r = rowOf (n := 16384) SX ⟨256 * tv + r.val, hr⟩)
    (hsb : ∀ (r : Fin 256) (hr : 256 * tv + r.val < 16384), rowOf sb r = rowOf (n := 16384) SB ⟨256 * tv + r.val, hr⟩)
    (hsp : ∀ (r : Fin 256) (hr : 256 * tv + r.val < 16384), rowOf sp r = rowOf (n := 16384) SP ⟨256 * tv + r.val, hr⟩)
    (y : S256x1024.Idx) (i : S16384x1024.Idx) (h0 : (i 0).val = 256 * tv + (y 0).val) (h1 : (i 1).val = (y 1).val) :
    denArr (n := 256) P x sx sb sp y = denArr (n := 16384) P X SX SB SP i := by
  have hr : 256 * tv + (y 0).val < 16384 := h0 ▸ (i 0).isLt
  have e0 : i 0 = ⟨256 * tv + (y 0).val, hr⟩ := Fin.ext h0
  have e1 : i 1 = y 1 := Fin.ext h1
  show denRow P (rowOf x (y 0)) (rowOf sx (y 0)) (rowOf sb (y 0)) (rowOf sp (y 0)) (y 1)
    = denRow P (rowOf X (i 0)) (rowOf SX (i 0)) (rowOf SB (i 0)) (rowOf SP (i 0)) (i 1)
  rw [e0, e1, hx _ hr, hsx _ hr, hsb _ hr, hsp _ hr]
  rfl

theorem expoArr_rows (P : Params) {X SX SP : S16384x1024.Idx → EReal} {x sx sp : S256x1024.Idx → EReal} (tv : Nat)
    (hx : ∀ (r : Fin 256) (hr : 256 * tv + r.val < 16384), rowOf x r = rowOf (n := 16384) X ⟨256 * tv + r.val, hr⟩)
    (hsx : ∀ (r : Fin 256) (hr : 256 * tv + r.val < 16384), rowOf sx r = rowOf (n := 16384) SX ⟨256 * tv + r.val, hr⟩)
    (hsp : ∀ (r : Fin 256) (hr : 256 * tv + r.val < 16384), rowOf sp r = rowOf (n := 16384) SP ⟨256 * tv + r.val, hr⟩)
    (y : S256x1024.Idx) (i : S16384x1024.Idx) (h0 : (i 0).val = 256 * tv + (y 0).val) (h1 : (i 1).val = (y 1).val) :
    expoArr (n := 256) P x sx sp y = expoArr (n := 16384) P X SX SP i := by
  have hr : 256 * tv + (y 0).val < 16384 := h0 ▸ (i 0).isLt
  have e0 : i 0 = ⟨256 * tv + (y 0).val, hr⟩ := Fin.ext h0
  have e1 : i 1 = y 1 := Fin.ext h1
  show expoRow P (rowOf x (y 0)) (rowOf sx (y 0)) (rowOf sp (y 0)) (y 1)
    = expoRow P (rowOf X (i 0)) (rowOf SX (i 0)) (rowOf SP (i 0)) (i 1)
  rw [e0, e1, hx _ hr, hsx _ hr, hsp _ hr]
  rfl

/-! ## The result blocks tile the result arrays -/

/-- An index of the output array is in point t's block iff each coordinate is in the block's range on its axis. -/
theorem mem_blk14 (t : Fin cfg0.N) (i : S16384x1024.Idx) :
    i ∈ ((cfg0.win 14).blk t).view.set ↔ ∀ a : Fin 2, win0_14.index t a * S256x1024.size a ≤ (i a).val
      ∧ (i a).val < win0_14.index t a * S256x1024.size a + S256x1024.size a := by
  show i ∈ ((View.whole main_v9_0).slice (win0_14.rect t)).set ↔ _
  rw [View.set_slice_whole, Rect.mem_set_unit]
  exact Iff.rfl
theorem mem_blk15 (t : Fin cfg0.N) (i : S16384x1024.Idx) :
    i ∈ ((cfg0.win 15).blk t).view.set ↔ ∀ a : Fin 2, win0_15.index t a * S256x1024.size a ≤ (i a).val
      ∧ (i a).val < win0_15.index t a * S256x1024.size a + S256x1024.size a := by
  show i ∈ ((View.whole main_v9_1).slice (win0_15.rect t)).set ↔ _
  rw [View.set_slice_whole, Rect.mem_set_unit]
  exact Iff.rfl
theorem mem_blk16 (t : Fin cfg0.N) (i : S16384x1024.Idx) :
    i ∈ ((cfg0.win 16).blk t).view.set ↔ ∀ a : Fin 2, win0_16.index t a * S256x1024.size a ≤ (i a).val
      ∧ (i a).val < win0_16.index t a * S256x1024.size a + S256x1024.size a := by
  show i ∈ ((View.whole main_v9_2).slice (win0_16.rect t)).set ↔ _
  rw [View.set_slice_whole, Rect.mem_set_unit]
  exact Iff.rfl
theorem mem_blk17 (t : Fin cfg0.N) (i : S16384x1024.Idx) :
    i ∈ ((cfg0.win 17).blk t).view.set ↔ ∀ a : Fin 2, win0_17.index t a * S256x1024.size a ≤ (i a).val
      ∧ (i a).val < win0_17.index t a * S256x1024.size a + S256x1024.size a := by
  show i ∈ ((View.whole main_v9_3).slice (win0_17.rect t)).set ↔ _
  rw [View.set_slice_whole, Rect.mem_set_unit]
  exact Iff.rfl

/-- The point whose blocks hold row b: b / 256. -/
def pointOf (i : S16384x1024.Idx) : Fin cfg0.N :=
  ⟨(i 0).val / 256, by
    have hi : (i 0).val < 16384 := (i 0).isLt
    rw [show cfg0.N = 64 from N_0]; omega⟩

theorem pointOf_val (i : S16384x1024.Idx) : (pointOf i).val = (i 0).val / 256 := rfl

/-- Every index of the output array is in the block of the point b / 256, which writes its block back. -/
theorem cover14 (i : S16384x1024.Idx) :
    ∃ t : Fin cfg0.N, (cfg0.win 14).flush t = true ∧ i ∈ ((cfg0.win 14).blk t).view.set := by
  have hi0 : (i 0).val < 16384 := (i 0).isLt
  have hi1 : (i 1).val < 1024 := (i 1).isLt
  have hp := pointOf_val i
  obtain ⟨⟨e0, e1⟩, -⟩ := idx_result (pointOf i)
  refine ⟨pointOf i, flush0_14 _, ?_⟩
  rw [mem_blk14]
  intro a
  match a with
  | ⟨0, _⟩ =>
    show win0_14.index (pointOf i) (0 : Fin 2) * 256 ≤ (i 0).val ∧ (i 0).val < win0_14.index (pointOf i) (0 : Fin 2) * 256 + 256
    rw [e0, hp]; omega
  | ⟨1, _⟩ =>
    show win0_14.index (pointOf i) (1 : Fin 2) * 1024 ≤ (i 1).val ∧ (i 1).val < win0_14.index (pointOf i) (1 : Fin 2) * 1024 + 1024
    rw [e1]; omega
theorem cover15 (i : S16384x1024.Idx) :
    ∃ t : Fin cfg0.N, (cfg0.win 15).flush t = true ∧ i ∈ ((cfg0.win 15).blk t).view.set := by
  have hi0 : (i 0).val < 16384 := (i 0).isLt
  have hi1 : (i 1).val < 1024 := (i 1).isLt
  have hp := pointOf_val i
  obtain ⟨-, ⟨e0, e1⟩, -⟩ := idx_result (pointOf i)
  refine ⟨pointOf i, flush0_15 _, ?_⟩
  rw [mem_blk15]
  intro a
  match a with
  | ⟨0, _⟩ =>
    show win0_15.index (pointOf i) (0 : Fin 2) * 256 ≤ (i 0).val ∧ (i 0).val < win0_15.index (pointOf i) (0 : Fin 2) * 256 + 256
    rw [e0, hp]; omega
  | ⟨1, _⟩ =>
    show win0_15.index (pointOf i) (1 : Fin 2) * 1024 ≤ (i 1).val ∧ (i 1).val < win0_15.index (pointOf i) (1 : Fin 2) * 1024 + 1024
    rw [e1]; omega
theorem cover16 (i : S16384x1024.Idx) :
    ∃ t : Fin cfg0.N, (cfg0.win 16).flush t = true ∧ i ∈ ((cfg0.win 16).blk t).view.set := by
  have hi0 : (i 0).val < 16384 := (i 0).isLt
  have hi1 : (i 1).val < 1024 := (i 1).isLt
  have hp := pointOf_val i
  obtain ⟨-, -, ⟨e0, e1⟩, -⟩ := idx_result (pointOf i)
  refine ⟨pointOf i, flush0_16 _, ?_⟩
  rw [mem_blk16]
  intro a
  match a with
  | ⟨0, _⟩ =>
    show win0_16.index (pointOf i) (0 : Fin 2) * 256 ≤ (i 0).val ∧ (i 0).val < win0_16.index (pointOf i) (0 : Fin 2) * 256 + 256
    rw [e0, hp]; omega
  | ⟨1, _⟩ =>
    show win0_16.index (pointOf i) (1 : Fin 2) * 1024 ≤ (i 1).val ∧ (i 1).val < win0_16.index (pointOf i) (1 : Fin 2) * 1024 + 1024
    rw [e1]; omega
theorem cover17 (i : S16384x1024.Idx) :
    ∃ t : Fin cfg0.N, (cfg0.win 17).flush t = true ∧ i ∈ ((cfg0.win 17).blk t).view.set := by
  have hi0 : (i 0).val < 16384 := (i 0).isLt
  have hi1 : (i 1).val < 1024 := (i 1).isLt
  have hp := pointOf_val i
  obtain ⟨-, -, -, e0, e1⟩ := idx_result (pointOf i)
  refine ⟨pointOf i, flush0_17 _, ?_⟩
  rw [mem_blk17]
  intro a
  match a with
  | ⟨0, _⟩ =>
    show win0_17.index (pointOf i) (0 : Fin 2) * 256 ≤ (i 0).val ∧ (i 0).val < win0_17.index (pointOf i) (0 : Fin 2) * 256 + 256
    rw [e0, hp]; omega
  | ⟨1, _⟩ =>
    show win0_17.index (pointOf i) (1 : Fin 2) * 1024 ≤ (i 1).val ∧ (i 1).val < win0_17.index (pointOf i) (1 : Fin 2) * 1024 + 1024
    rw [e1]; omega

/-! ## What each point writes back is its rows of the whole results -/

/-- Point t's output block is block t of the output over all 16384 entries. -/
theorem flushed14_eq (c : Dev nD) (t : Fin cfg0.N) :
    (dats m 0 c).flushed 14 t = ((cfg0.win 14).blk t).view.read (Elt Ideal)
      (outArr (n := 16384) (paramsM m c) (m ((c : Thread nD τ).loc main_arg0)) (m ((c : Thread nD τ).loc main_arg1))
        (m ((c : Thread nD τ).loc main_arg2)) (m ((c : Thread nD τ).loc main_arg3)) (m ((c : Thread nD τ).loc main_arg4))) := by
  rw [Value.flushed14, outsAt_eq]
  dsimp only
  obtain ⟨⟨e0, e1⟩, -⟩ := idx_result t
  funext y
  rw [View.read_apply]
  show outArr (n := 256) (paramsAt m c t) (b0 m c t) (b1 m c t) (b2 m c t) (b3 m c t) (b4 m c t) y
    = outArr (n := 16384) (paramsM m c) (m ((c : Thread nD τ).loc main_arg0)) (m ((c : Thread nD τ).loc main_arg1))
        (m ((c : Thread nD τ).loc main_arg2)) (m ((c : Thread nD τ).loc main_arg3)) (m ((c : Thread nD τ).loc main_arg4))
        (((cfg0.win 14).blk t).view.emb y)
  rw [paramsAt_eq]
  refine outArr_rows (paramsM m c) t.val (row0 m c t) (row1 m c t) (row2 m c t) (row3 m c t) (row4 m c t) y _ ?_ ?_
  · show win0_14.index t (0 : Fin 2) * 256 + 1 * (y 0).val = 256 * t.val + (y 0).val
    rw [e0]; omega
  · show win0_14.index t (1 : Fin 2) * 1024 + 1 * (y 1).val = (y 1).val
    rw [e1]; omega

/-- Point t's new-numerator block is block t of the new numerator over all 16384 entries. -/
theorem flushed15_eq (c : Dev nD) (t : Fin cfg0.N) :
    (dats m 0 c).flushed 15 t = ((cfg0.win 15).blk t).view.read (Elt Ideal)
      (numArr (n := 16384) (paramsM m c) (m ((c : Thread nD τ).loc main_arg0)) (m ((c : Thread nD τ).loc main_arg1))
        (m ((c : Thread nD τ).loc main_arg2)) (m ((c : Thread nD τ).loc main_arg4))) := by
  rw [Value.flushed15, outsAt_eq]
  dsimp only
  obtain ⟨-, ⟨e0, e1⟩, -⟩ := idx_result t
  funext y
  rw [View.read_apply]
  show numArr (n := 256) (paramsAt m c t) (b0 m c t) (b1 m c t) (b2 m c t) (b4 m c t) y
    = numArr (n := 16384) (paramsM m c) (m ((c : Thread nD τ).loc main_arg0)) (m ((c : Thread nD τ).loc main_arg1))
        (m ((c : Thread nD τ).loc main_arg2)) (m ((c : Thread nD τ).loc main_arg4))
        (((cfg0.win 15).blk t).view.emb y)
  rw [paramsAt_eq]
  refine numArr_rows (paramsM m c) t.val (row0 m c t) (row1 m c t) (row2 m c t) (row4 m c t) y _ ?_ ?_
  · show win0_15.index t (0 : Fin 2) * 256 + 1 * (y 0).val = 256 * t.val + (y 0).val
    rw [e0]; omega
  · show win0_15.index t (1 : Fin 2) * 1024 + 1 * (y 1).val = (y 1).val
    rw [e1]; omega

/-- Point t's new-denominator block is block t of the new denominator over all 16384 entries. -/
theorem flushed16_eq (c : Dev nD) (t : Fin cfg0.N) :
    (dats m 0 c).flushed 16 t = ((cfg0.win 16).blk t).view.read (Elt Ideal)
      (denArr (n := 16384) (paramsM m c) (m ((c : Thread nD τ).loc main_arg0)) (m ((c : Thread nD τ).loc main_arg1))
        (m ((c : Thread nD τ).loc main_arg3)) (m ((c : Thread nD τ).loc main_arg4))) := by
  rw [Value.flushed16, outsAt_eq]
  dsimp only
  obtain ⟨-, -, ⟨e0, e1⟩, -⟩ := idx_result t
  funext y
  rw [View.read_apply]
  show denArr (n := 256) (paramsAt m c t) (b0 m c t) (b1 m c t) (b3 m c t) (b4 m c t) y
    = denArr (n := 16384) (paramsM m c) (m ((c : Thread nD τ).loc main_arg0)) (m ((c : Thread nD τ).loc main_arg1))
        (m ((c : Thread nD τ).loc main_arg3)) (m ((c : Thread nD τ).loc main_arg4))
        (((cfg0.win 16).blk t).view.emb y)
  rw [paramsAt_eq]
  refine denArr_rows (paramsM m c) t.val (row0 m c t) (row1 m c t) (row3 m c t) (row4 m c t) y _ ?_ ?_
  · show win0_16.index t (0 : Fin 2) * 256 + 1 * (y 0).val = 256 * t.val + (y 0).val
    rw [e0]; omega
  · show win0_16.index t (1 : Fin 2) * 1024 + 1 * (y 1).val = (y 1).val
    rw [e1]; omega

/-- Point t's new-exponent block is block t of the new exponent over all 16384 entries. -/
theorem flushed17_eq (c : Dev nD) (t : Fin cfg0.N) :
    (dats m 0 c).flushed 17 t = ((cfg0.win 17).blk t).view.read (Elt Ideal)
      (expoArr (n := 16384) (paramsM m c) (m ((c : Thread nD τ).loc main_arg0)) (m ((c : Thread nD τ).loc main_arg1))
        (m ((c : Thread nD τ).loc main_arg4))) := by
  rw [Value.flushed17, outsAt_eq]
  dsimp only
  obtain ⟨-, -, -, e0, e1⟩ := idx_result t
  funext y
  rw [View.read_apply]
  show expoArr (n := 256) (paramsAt m c t) (b0 m c t) (b1 m c t) (b4 m c t) y
    = expoArr (n := 16384) (paramsM m c) (m ((c : Thread nD τ).loc main_arg0)) (m ((c : Thread nD τ).loc main_arg1))
        (m ((c : Thread nD τ).loc main_arg4))
        (((cfg0.win 17).blk t).view.emb y)
  rw [paramsAt_eq]
  refine expoArr_rows (paramsM m c) t.val (row0 m c t) (row1 m c t) (row4 m c t) y _ ?_ ?_
  · show win0_17.index t (0 : Fin 2) * 256 + 1 * (y 0).val = 256 * t.val + (y 0).val
    rw [e0]; omega
  · show win0_17.index t (1 : Fin 2) * 1024 + 1 * (y 1).val = (y 1).val
    rw [e1]; omega

/-! ## The result arrays after the last point -/

/-- The output array ends holding the output of all 16384 entries. -/
theorem final14 (c : Dev nD) : (dats m 0 c).arrAt 14 cfg0.N
    = outArr (n := 16384) (paramsM m c) (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 14 _ (fun t _ => flushed14_eq m c t) cover14

/-- The new-numerator array ends holding the new numerator of all 16384 entries. -/
theorem final15 (c : Dev nD) : (dats m 0 c).arrAt 15 cfg0.N
    = numArr (n := 16384) (paramsM m c) (m ((c : Thread nD τ).loc main_arg0)) (m ((c : Thread nD τ).loc main_arg1))
        (m ((c : Thread nD τ).loc main_arg2)) (m ((c : Thread nD τ).loc main_arg4)) :=
  (dats m 0 c).arrAt_eq_of_cover 15 _ (fun t _ => flushed15_eq m c t) cover15

/-- The new-denominator array ends holding the new denominator of all 16384 entries. -/
theorem final16 (c : Dev nD) : (dats m 0 c).arrAt 16 cfg0.N
    = denArr (n := 16384) (paramsM m c) (m ((c : Thread nD τ).loc main_arg0)) (m ((c : Thread nD τ).loc main_arg1))
        (m ((c : Thread nD τ).loc main_arg3)) (m ((c : Thread nD τ).loc main_arg4)) :=
  (dats m 0 c).arrAt_eq_of_cover 16 _ (fun t _ => flushed16_eq m c t) cover16

/-- The new-exponent array ends holding the new exponent of all 16384 entries. -/
theorem final17 (c : Dev nD) : (dats m 0 c).arrAt 17 cfg0.N
    = expoArr (n := 16384) (paramsM m c) (m ((c : Thread nD τ).loc main_arg0)) (m ((c : Thread nD τ).loc main_arg1))
        (m ((c : Thread nD τ).loc main_arg4)) :=
  (dats m 0 c).arrAt_eq_of_cover 17 _ (fun t _ => flushed17_eq m c t) cover17

/-! ## The run, read -/

/-- The kernel's run: the four result arrays at the specification's results of the arguments, the arguments unchanged
    (the token array is returned as the second result). -/
theorem run : θ_run defs (onTc (τ := τ) (main (F := Ideal))) ⟨m, fun _ => 0, ρ⟩ fun r => ∀ c : Dev nD,
      r.2.mem ((c : Thread nD τ).loc main_v9_0)
        = outArr (n := 16384) (paramsM m c) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_v9_1)
        = numArr (n := 16384) (paramsM m c) (m ((c : Thread nD τ).loc main_arg0)) (m ((c : Thread nD τ).loc main_arg1))
            (m ((c : Thread nD τ).loc main_arg2)) (m ((c : Thread nD τ).loc main_arg4))
      ∧ r.2.mem ((c : Thread nD τ).loc main_v9_2)
        = denArr (n := 16384) (paramsM m c) (m ((c : Thread nD τ).loc main_arg0)) (m ((c : Thread nD τ).loc main_arg1))
            (m ((c : Thread nD τ).loc main_arg3)) (m ((c : Thread nD τ).loc main_arg4))
      ∧ r.2.mem ((c : Thread nD τ).loc main_v9_3)
        = expoArr (n := 16384) (paramsM m c) (m ((c : Thread nD τ).loc main_arg0)) (m ((c : Thread nD τ).loc main_arg1))
            (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => by
      obtain ⟨h14, h15, h16, h17, k0, k1, k2, k3, k4, k5, k6, k7, k8, k9, k10, k11, k12, k13⟩ := h c
      exact ⟨h14.trans (final14 m c), k0, h15.trans (final15 m c), h16.trans (final16 m c), h17.trans (final17 m c),
        k0, k1, k2, k3, k4, k5, k6, k7, k8, k9, k10, k11, k12, k13⟩)
    (Value.run_blocks m ρ)

end Cert.KernelIdeal.Arr

end
-- ==== Proof.lean ====
/-
  One step of the time-mixing recurrence as a fused kernel, against its whole-array reference, over the extended reals.

  Both programs compute, for each of 16384 batch entries, the three projections of the mixed token, the stabilised
  weighted value gated by the logistic receptance, its projection by the output matrix, and the updated state
  (numerator, denominator, exponent).  The kernel does it 256 entries at a time: three products into scratch, a loop of
  four trips over 64-row slices for the entrywise part, and a last product; the reference does it on whole arrays.  Over
  the extended reals every operation on the two sides is the same exact operation (a narrowing is the identity, a product
  into the zero splat is the plain sum, the kernel's logistic is the expression the reference spells out), so the two
  results are one function of the arguments, entry by entry: Proof/Spec.lean states that function, Proof/RefValue.lean
  reads the reference as it, Proof/KernelLoop.lean and Proof/KernelBlock.lean read one grid point's blocks as it, and
  Proof/KernelArray.lean puts the 64 points' blocks together.  The idealization rewrote nothing, so `preserves` is
  trivial; the three frames are the programs' runs with the results dropped.
-/
import proofs.«413805_j24764781429091_3_alg».proof.Defs
import proofs.«413805_j24764781429091_3_alg».proof.Proof.Gen.Kernel
import proofs.«413805_j24764781429091_3_alg».proof.Proof.KernelFrame
import proofs.«413805_j24764781429091_3_alg».proof.Proof.Gen.KernelIdeal
import proofs.«413805_j24764781429091_3_alg».proof.Proof.KernelIdealFrame
import proofs.«413805_j24764781429091_3_alg».proof.Proof.Gen.ReferenceIdeal
import proofs.«413805_j24764781429091_3_alg».proof.Proof.Gen.Pre_finite_inputs
import proofs.«413805_j24764781429091_3_alg».proof.Proof.Gen.ReferenceIdeal.Run
import proofs.«413805_j24764781429091_3_alg».proof.Proof.Gen.ReferenceIdeal.Read
import proofs.«413805_j24764781429091_3_alg».proof.Proof.RefValue
import proofs.«413805_j24764781429091_3_alg».proof.Proof.KernelArray
import Idealize.ShloMosaic.Adequacy
import Idealize.ShloMosaic.Init

noncomputable section

namespace Cert.Proof

open Idealize.ShloMosaic Idealize.ShloMosaic.TcCoe Idealize.SL.Sem Cert.TimeMix

theorem frame_k : Cert.frame_Kernel := fun m ρ _ => Cert.Kernel.Gen.frame m ρ
theorem frame_ki : Cert.frame_KernelIdeal := fun m ρ _ => Cert.KernelIdeal.Gen.frame m ρ
/-- The reference's run with its five results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

set_option maxHeartbeats 4000000 in
/-- From memories that agree on the fourteen arguments the two runs end with the same five results: the output, the
    token passed through, and the new numerator, denominator and exponent, each the specification's function. -/
theorem algebraic : Cert.algebraic_KernelIdeal_ReferenceIdeal := by
  intro m ρ m' ρ' _ hagree
  refine ⟨_, _, _, _, _, Cert.KernelIdeal.Arr.run m ρ, ?_⟩
  refine (θ_run Cert.ReferenceIdeal.defs _ _).mono (fun _ h c => ?_) (Cert.ReferenceIdeal.Value.run (F := Ideal) m' ρ')
  obtain ⟨h66, h0, h63, h65, h56, hargs⟩ := h c
  obtain ⟨e0, e1, e2, e3, e4, e5, e6, e7, e8, e9, e10, e11, e12, e13⟩ := hagree c
  refine ⟨h66.trans ?_, h0.trans e0, h63.trans ?_, h65.trans ?_, h56.trans ?_, hargs⟩
  · refine (Cert.ReferenceIdeal.Read.val_main_v66_eq m' c).trans ?_
    rw [Cert.ReferenceIdeal.RefValue.out_eq _ _ _ _ _ (m' ((c.tc : Thread Cert.ReferenceIdeal.nD Cert.ReferenceIdeal.τ).loc Cert.ReferenceIdeal.main_arg5)) _ _ _ _ _ _ _ _,
      e0, e1, e2, e3, e4, e5, e6, e7, e8, e9, e10, e11, e12, e13]
    rfl
  · refine (Cert.ReferenceIdeal.Read.val_main_v63_eq (F := Ideal) _ _ _ _ _ _ _ _ _).trans ?_
    rw [Cert.ReferenceIdeal.RefValue.num_eq _ _ _ (m' ((c.tc : Thread Cert.ReferenceIdeal.nD Cert.ReferenceIdeal.τ).loc Cert.ReferenceIdeal.main_arg3)) _ _ (m' ((c.tc : Thread Cert.ReferenceIdeal.nD Cert.ReferenceIdeal.τ).loc Cert.ReferenceIdeal.main_arg6)) _ _ (m' ((c.tc : Thread Cert.ReferenceIdeal.nD Cert.ReferenceIdeal.τ).loc Cert.ReferenceIdeal.main_arg9)) _ _ (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)),
      e0, e1, e2, e4, e5, e6, e7, e8, e9, e10, e11, e12, e13]
    rfl
  · refine (Cert.ReferenceIdeal.Read.val_main_v65_eq (F := Ideal) _ _ _ _ _ _ _).trans ?_
    rw [Cert.ReferenceIdeal.RefValue.den_eq _ _ (m' ((c.tc : Thread Cert.ReferenceIdeal.nD Cert.ReferenceIdeal.τ).loc Cert.ReferenceIdeal.main_arg2)) _ _ _ (m' ((c.tc : Thread Cert.ReferenceIdeal.nD Cert.ReferenceIdeal.τ).loc Cert.ReferenceIdeal.main_arg6)) _ (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) _ (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)),
      e0, e1, e3, e4, e5, e6, e7, e8, e9, e10, e11, e12, e13]
    rfl
  · refine (Cert.ReferenceIdeal.Read.val_main_v56_eq (F := Ideal) _ _ _ _ _ _).trans ?_
    rw [Cert.ReferenceIdeal.RefValue.expo_eq _ _ (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) _ _ (m' ((c.tc : Thread Cert.ReferenceIdeal.nD Cert.ReferenceIdeal.τ).loc Cert.ReferenceIdeal.main_arg6)) _ (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) _ (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)),
      e0, e1, e4, e5, e6, e7, e8, e9, e10, e11, e12, e13]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
